-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024 : Shape := ⟨2, ![256, 1024]⟩
abbrev S256 : Shape := ⟨1, ![256]⟩
abbrev S512x1024 : Shape := ⟨2, ![512, 1024]⟩
abbrev S512 : Shape := ⟨1, ![512]⟩
abbrev S2048x512 : Shape := ⟨2, ![2048, 512]⟩
abbrev S2048 : Shape := ⟨1, ![2048]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S256 : S_.BroadcastsInDim S256 (![] : Fin 0 → Fin S256.rank)
  reducesTo_S256_S_d0 : S256.ReducesTo [0] S_

variable [Facts]

def fn_part2 {F : FTy → Type} [FloatOps F] (main_v28 : IVec S_ 1) (main_v33 : IVec S256 1) : IVec S_ 1 :=
  let main_c_12 : IVec S_ 1 := constantI S_ 1 1#1
  let main_v34 : IVec S_ 1 := (fun x v => Host.reduce IntOp.andi x v reducesTo_S256_S_d0 h_S_) main_v33 main_c_12
  let main_v35 : IVec S_ 1 := andi main_v28 main_v34
  main_v35

def fn_part1 {F : FTy → Type} [FloatOps F] (main_arg1 : IVec S256 32) (main_arg5 : FVec F S2048 .f32) (main_arg6 : FVec F S2048x512 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S2048 .f32 := Host.absf main_arg5
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x512 .f32 := Host.absf main_arg6
  let main_cst_8 : FVec F S_ .f32 := constant S_ .f32 0x7F800000#32
  let main_v25 : FVec F S2048x512 .f32 := broadcastInDim S2048x512 ![] bcast_S_S2048x512 main_cst_8
  let main_v26 : IVec S2048x512 1 := cmpf .olt main_v24 main_v25
  let main_c_9 : IVec S_ 1 := constantI S_ 1 1#1
  let main_v27 : IVec S_ 1 := (fun x v => Host.reduce IntOp.andi x v reducesTo_S2048x512_S_d0_1 h_S_) main_v26 main_c_9
  let main_v28 : IVec S_ 1 := andi main_v23 main_v27
  let main_c_10 : IVec S_ 32 := constantI S_ 32 0#32
  let main_v29 : IVec S256 32 := broadcastInDim S256 ![] bcast_S_S256 main_c_10
  let main_v30 : IVec S256 1 := cmpi .sge main_arg1 main_v29
  let main_c_11 : IVec S_ 32 := constantI S_ 32 2048#32
  let main_v31 : IVec S256 32 := broadcastInDim S256 ![] bcast_S_S256 main_c_11
  let main_v32 : IVec S256 1 := cmpi .slt main_arg1 main_v31
  let main_v33 : IVec S256 1 := andi main_v30 main_v32
  fn_part2 (F := F) main_v28 main_v33

def fn {F : FTy → Type} [FloatOps F] (main_arg0 : FVec F S256x1024 .f32) (main_arg1 : IVec S256 32) (main_arg2 : FVec F S512x1024 .f32) (main_arg3 : FVec F S512 .f32) (main_arg4 : FVec F S2048x512 .f32) (main_arg5 : FVec F S2048 .f32) (main_arg6 : FVec F S2048x512 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S512x1024 .f32 := Host.absf main_arg2
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S2048x512 .f32 := Host.absf main_arg4
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg1 main_arg5 main_arg6 main_v13 main_v16
-- ==== Kernel.lean ====
abbrev S256x1024 : Shape := ⟨2, ![256, 1024]⟩
abbrev S256 : Shape := ⟨1, ![256]⟩
abbrev S512x1024 : Shape := ⟨2, ![512, 1024]⟩
abbrev S512 : Shape := ⟨1, ![512]⟩
abbrev S2048x512 : Shape := ⟨2, ![2048, 512]⟩
abbrev S2048 : Shape := ⟨1, ![2048]⟩
abbrev S_ : Shape := ⟨0, ![]⟩
abbrev S256x1 : Shape := ⟨2, ![256, 1]⟩
abbrev S1x512 : Shape := ⟨2, ![1, 512]⟩
abbrev S1x2048 : Shape := ⟨2, ![1, 2048]⟩
abbrev S256x2048 : Shape := ⟨2, ![256, 2048]⟩
abbrev S256x2 : Shape := ⟨2, ![256, 2]⟩
abbrev S128x1024 : Shape := ⟨2, ![128, 1024]⟩
abbrev S128x1 : Shape := ⟨2, ![128, 1]⟩
abbrev S128x2048 : Shape := ⟨2, ![128, 2048]⟩
abbrev S128x2 : Shape := ⟨2, ![128, 2]⟩
abbrev S128x512 : Shape := ⟨2, ![128, 512]⟩
abbrev S128 : Shape := ⟨1, ![128]⟩

abbrev nBuf : Space → Nat
  | .hbm => 32
  | .vmem => 13
  | .smem => 0
  | _ => 0

abbrev bufTy : (tb : Table) → Fin (tcTables nBuf tb) → BufTy
  | .hbm, ⟨0, _⟩ => ⟨S256x1024, .f32⟩
  | .hbm, ⟨1, _⟩ => ⟨S256, .i32⟩
  | .hbm, ⟨2, _⟩ => ⟨S512x1024, .f32⟩
  | .hbm, ⟨3, _⟩ => ⟨S512, .f32⟩
  | .hbm, ⟨4, _⟩ => ⟨S2048x512, .f32⟩
  | .hbm, ⟨5, _⟩ => ⟨S2048, .f32⟩
  | .hbm, ⟨6, _⟩ => ⟨S2048x512, .f32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S_, .i32⟩
  | .hbm, ⟨13, _⟩ => ⟨S256, .i32⟩
  | .hbm, ⟨14, _⟩ => ⟨S256, .i32⟩
  | .hbm, ⟨15, _⟩ => ⟨S256x1, .i32⟩
  | .hbm, ⟨16, _⟩ => ⟨S1x512, .f32⟩
  | .hbm, ⟨17, _⟩ => ⟨S1x2048, .f32⟩
  | .hbm, ⟨18, _⟩ => ⟨S256x2048, .f32⟩
  | .hbm, ⟨19, _⟩ => ⟨S256x2, .f32⟩
  | .hbm, ⟨20, _⟩ => ⟨S256x1, .f32⟩
  | .hbm, ⟨21, _⟩ => ⟨S256, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S256x1, .f32⟩
  | .hbm, ⟨27, _⟩ => ⟨S256, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S128x1024, .f32⟩
  | .local _ .vmem, ⟨1, _⟩ => ⟨S128x1024, .f32⟩
  | .local _ .vmem, ⟨2, _⟩ => ⟨S512x1024, .f32⟩
  | .local _ .vmem, ⟨3, _⟩ => ⟨S1x512, .f32⟩
  | .local _ .vmem, ⟨4, _⟩ => ⟨S2048x512, .f32⟩
  | .local _ .vmem, ⟨5, _⟩ => ⟨S1x2048, .f32⟩
  | .local _ .vmem, ⟨6, _⟩ => ⟨S2048x512, .f32⟩
  | .local _ .vmem, ⟨7, _⟩ => ⟨S128x1, .i32⟩
  | .local _ .vmem, ⟨8, _⟩ => ⟨S128x1, .i32⟩
  | .local _ .vmem, ⟨9, _⟩ => ⟨S128x2048, .f32⟩
  | .local _ .vmem, ⟨10, _⟩ => ⟨S128x2048, .f32⟩
  | .local _ .vmem, ⟨11, _⟩ => ⟨S128x2, .f32⟩
  | .local _ .vmem, ⟨12, _⟩ => ⟨S128x2, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4_0 : Ref sig .tc := ⟨.hbm, 18, rfl⟩
abbrev main_v4_1 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_cst_3 : Ref sig .tc := ⟨.hbm, 30, rfl⟩
abbrev main_v12 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S256 : S_.BroadcastsInDim S256 (![] : Fin 0 → Fin S256.rank)
  shapeCasts_S256_S256x1 : S256.ShapeCasts S256x1
  shapeCasts_S512_S1x512 : S512.ShapeCasts S1x512
  shapeCasts_S2048_S1x2048 : S2048.ShapeCasts S1x2048
  inb_S128x1024_S128x1024_0_0 : ∀ a, (![0, 0] : Fin 2 → Nat) a + S128x1024.size a ≤ S128x1024.size a
  h_S128x1024 : 0 < S128x1024.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  reduces_S128x512_S128 : S128x512.Reduces [1] S128
  shapeCasts_S128_S128x1 : S128.ShapeCasts S128x1
  inb_S2048x512_S2048x512_0_0 : ∀ a, (![0, 0] : Fin 2 → Nat) a + S2048x512.size a ≤ S2048x512.size a
  h_S2048x512 : 0 < S2048x512.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  inb_S128x2048_S128x2048_0_0 : ∀ a, (![0, 0] : Fin 2 → Nat) a + S128x2048.size a ≤ S128x2048.size a
  h_S128x2048 : 0 < S128x2048.numel
  broadcasts_S128x1_S128x2048 : S128x1.Broadcasts S128x2048
  reduces_S128x2048_S128 : S128x2048.Reduces [1] S128
  iota_S128x2048_d1_w32 : S128x2048.Iotas .tc 32 [1]
  inb_S128x1_S128x1_0_0 : ∀ a, (![0, 0] : Fin 2 → Nat) a + S128x1.size a ≤ S128x1.size a
  h_S128x1 : 0 < S128x1.numel
  shapeCasts_S128x1_S128x1 : S128x1.ShapeCasts S128x1
  concatenates_S128x1_S128x1_S128x2_d1 : Shape.Concatenates [S128x1, S128x1] S128x2 1
  inb_S128x2_S128x2_0_0 : ∀ a, (![0, 0] : Fin 2 → Nat) a + S128x2.size a ≤ S128x2.size a
  h_S128x2 : 0 < S128x2.numel
  slices_S256x2_S256x1_0_0 : S256x2.Slices ![0, 0] S256x1
  shapeCasts_S256x1_S256 : S256x1.ShapeCasts S256
  reducesTo_S256_S_d0 : S256.ReducesTo [0] S_
  h_S_ : 0 < S_.numel
  slices_S256x2_S256x1_0_1 : S256x2.Slices ![0, 1] S256x1
  dot_S128x1024_S512x1024_S128x512_1_1_0_0_n_n_wf : DotDims.WF S128x1024 S512x1024 S128x512 [1] [1] [0] [0] [] []
  dot_S128x512_S2048x512_S128x2048_1_1_0_0_n_n_wf : DotDims.WF S128x512 S2048x512 S128x2048 [1] [1] [0] [0] [] []
  dot_S1x512_S2048x512_S1x2048_1_1_0_0_n_n_wf : DotDims.WF S1x512 S2048x512 S1x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S256x1024.size a
  hwx0_0 : ∀ i : grid0.Coords, EltTy.bits .f32 = 32 ∨ (Rect.block (s := S256x1024) S128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x512.size a
  hwx0_3 : ∀ i : grid0.Coords, EltTy.bits .f32 = 32 ∨ (Rect.block (s := S2048x512) S2048x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S2048x512.size a
  hwx0_5 : ∀ i : grid0.Coords, EltTy.bits .f32 = 32 ∨ (Rect.block (s := S2048x512) S2048x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S256x1.size a
  hwx0_6 : ∀ i : grid0.Coords, EltTy.bits .i32 = 32 ∨ (Rect.block (s := S256x1) S128x1.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x2048.size a ≤ S256x2048.size a
  hwx0_7 : ∀ i : grid0.Coords, EltTy.bits .f32 = 32 ∨ (Rect.block (s := S256x2048) S128x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x2.size a ≤ S256x2.size a
  hwx0_8 : ∀ i : grid0.Coords, EltTy.bits .f32 = 32 ∨ (Rect.block (s := S256x2) S128x2.size (cc0_transform_8 i) (hinb0_8 i)).WholeWords (EltTy.packing .f32)

variable [Facts₀]

def dot_S128x1024_S512x1024_S128x512_1_1_0_0_n_n : DotDims S128x1024 S512x1024 S128x512 where
  lhsContracting := [1]
  rhsContracting := [1]
  lhsNonContracting := [0]
  rhsNonContracting := [0]
  lhsBatch := []
  rhsBatch := []
  wf := dot_S128x1024_S512x1024_S128x512_1_1_0_0_n_n_wf
def dot_S128x512_S2048x512_S128x2048_1_1_0_0_n_n : DotDims S128x512 S2048x512 S128x2048 where
  lhsContracting := [1]
  rhsContracting := [1]
  lhsNonContracting := [0]
  rhsNonContracting := [0]
  lhsBatch := []
  rhsBatch := []
  wf := dot_S128x512_S2048x512_S128x2048_1_1_0_0_n_n_wf
def dot_S1x512_S2048x512_S1x2048_1_1_0_0_n_n : DotDims S1x512 S2048x512 S1x2048 where
  lhsContracting := [1]
  rhsContracting := [1]
  lhsNonContracting := [0]
  rhsNonContracting := [0]
  lhsBatch := []
  rhsBatch := []
  wf := dot_S1x512_S2048x512_S1x2048_1_1_0_0_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S2048x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S128x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S128x2048.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S128x2.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S256x1024 : Shape := ⟨2, ![256, 1024]⟩
abbrev S256 : Shape := ⟨1, ![256]⟩
abbrev S512x1024 : Shape := ⟨2, ![512, 1024]⟩
abbrev S512 : Shape := ⟨1, ![512]⟩
abbrev S2048x512 : Shape := ⟨2, ![2048, 512]⟩
abbrev S2048 : Shape := ⟨1, ![2048]⟩
abbrev S1024x512 : Shape := ⟨2, ![1024, 512]⟩
abbrev S256x512 : Shape := ⟨2, ![256, 512]⟩
abbrev S1x512 : Shape := ⟨2, ![1, 512]⟩
abbrev S_ : Shape := ⟨0, ![]⟩
abbrev S512x2048 : Shape := ⟨2, ![512, 2048]⟩
abbrev S256x2048 : Shape := ⟨2, ![256, 2048]⟩
abbrev S1x2048 : Shape := ⟨2, ![1, 2048]⟩
abbrev S256x1x512 : Shape := ⟨3, ![256, 1, 512]⟩
abbrev S1x2048x512 : Shape := ⟨3, ![1, 2048, 512]⟩
abbrev S256x2048x512 : Shape := ⟨3, ![256, 2048, 512]⟩
abbrev S256x1 : Shape := ⟨2, ![256, 1]⟩
abbrev S256x1x1 : Shape := ⟨3, ![256, 1, 1]⟩
abbrev S1 : Shape := ⟨1, ![1]⟩
abbrev S1x1x1 : Shape := ⟨3, ![1, 1, 1]⟩

abbrev nBuf : Space → Nat
  | .hbm => 77
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256, .i32⟩
  | .hbm, ⟨2, _⟩ => ⟨S512x1024, .f32⟩
  | .hbm, ⟨3, _⟩ => ⟨S512, .f32⟩
  | .hbm, ⟨4, _⟩ => ⟨S2048x512, .f32⟩
  | .hbm, ⟨5, _⟩ => ⟨S2048, .f32⟩
  | .hbm, ⟨6, _⟩ => ⟨S2048x512, .f32⟩
  | .hbm, ⟨7, _⟩ => ⟨S1024x512, .f32⟩
  | .hbm, ⟨8, _⟩ => ⟨S256x512, .f32⟩
  | .hbm, ⟨9, _⟩ => ⟨S1x512, .f32⟩
  | .hbm, ⟨10, _⟩ => ⟨S256x512, .f32⟩
  | .hbm, ⟨11, _⟩ => ⟨S256x512, .f32⟩
  | .hbm, ⟨12, _⟩ => ⟨S256x512, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S512x2048, .f32⟩
  | .hbm, ⟨21, _⟩ => ⟨S256x2048, .f32⟩
  | .hbm, ⟨22, _⟩ => ⟨S1x2048, .f32⟩
  | .hbm, ⟨23, _⟩ => ⟨S256x2048, .f32⟩
  | .hbm, ⟨24, _⟩ => ⟨S256x2048, .f32⟩
  | .hbm, ⟨25, _⟩ => ⟨S256x1x512, .f32⟩
  | .hbm, ⟨26, _⟩ => ⟨S1x2048x512, .f32⟩
  | .hbm, ⟨27, _⟩ => ⟨S256x2048x512, .f32⟩
  | .hbm, ⟨28, _⟩ => ⟨S256x2048x512, .f32⟩
  | .hbm, ⟨29, _⟩ => ⟨S256x2048x512, .f32⟩
  | .hbm, ⟨30, _⟩ => ⟨S256x2048x512, .f32⟩
  | .hbm, ⟨31, _⟩ => ⟨S_, .f32⟩
  | .hbm, ⟨32, _⟩ => ⟨S256x2048, .f32⟩
  | .hbm, ⟨33, _⟩ => ⟨S256x2048, .f32⟩
  | .hbm, ⟨34, _⟩ => ⟨S_, .f32⟩
  | .hbm, ⟨35, _⟩ => ⟨S256, .f32⟩
  | .hbm, ⟨36, _⟩ => ⟨S_, .f32⟩
  | .hbm, ⟨37, _⟩ => ⟨S256, .f32⟩
  | .hbm, ⟨38, _⟩ => ⟨S256, .f32⟩
  | .hbm, ⟨39, _⟩ => ⟨S256x1, .f32⟩
  | .hbm, ⟨40, _⟩ => ⟨S256x2048, .f32⟩
  | .hbm, ⟨41, _⟩ => ⟨S256x2048, .f32⟩
  | .hbm, ⟨42, _⟩ => ⟨S256x2048, .f32⟩
  | .hbm, ⟨43, _⟩ => ⟨S_, .f32⟩
  | .hbm, ⟨44, _⟩ => ⟨S256, .f32⟩
  | .hbm, ⟨45, _⟩ => ⟨S256x1, .f32⟩
  | .hbm, ⟨46, _⟩ => ⟨S256x1, .f32⟩
  | .hbm, ⟨47, _⟩ => ⟨S256x2048, .f32⟩
  | .hbm, ⟨48, _⟩ => ⟨S256x2048, .f32⟩
  | .hbm, ⟨49, _⟩ => ⟨S256x1, .i32⟩
  | .hbm, ⟨50, _⟩ => ⟨S_, .i32⟩
  | .hbm, ⟨51, _⟩ => ⟨S256x1, .i32⟩
  | .hbm, ⟨52, _⟩ => ⟨S256x1, .i1⟩
  | .hbm, ⟨53, _⟩ => ⟨S_, .i32⟩
  | .hbm, ⟨54, _⟩ => ⟨S256x1, .i32⟩
  | .hbm, ⟨55, _⟩ => ⟨S256x1, .i32⟩
  | .hbm, ⟨56, _⟩ => ⟨S256x1, .i32⟩
  | .hbm, ⟨57, _⟩ => ⟨S256x1x1, .i32⟩
  | .hbm, ⟨58, _⟩ => ⟨S1, .i32⟩
  | .hbm, ⟨59, _⟩ => ⟨S_, .i32⟩
  | .hbm, ⟨60, _⟩ => ⟨S256x1x1, .i32⟩
  | .hbm, ⟨61, _⟩ => ⟨S256x1x1, .i1⟩
  | .hbm, ⟨62, _⟩ => ⟨S1x1x1, .i32⟩
  | .hbm, ⟨63, _⟩ => ⟨S256x1x1, .i32⟩
  | .hbm, ⟨64, _⟩ => ⟨S256x1x1, .i1⟩
  | .hbm, ⟨65, _⟩ => ⟨S256x1x1, .i1⟩
  | .hbm, ⟨66, _⟩ => ⟨S_, .i1⟩
  | .hbm, ⟨67, _⟩ => ⟨S256x1, .i1⟩
  | .hbm, ⟨68, _⟩ => ⟨S256x1, .f32⟩
  | .hbm, ⟨69, _⟩ => ⟨S_, .f32⟩
  | .hbm, ⟨70, _⟩ => ⟨S256x1, .f32⟩
  | .hbm, ⟨71, _⟩ => ⟨S256x1, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_call0_cst_0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_cst_1 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_v23 : Ref sig .tc := ⟨.hbm, 48, rfl⟩
abbrev main_v24 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_cst : Ref sig .tc := ⟨.hbm, 69, rfl⟩
abbrev main_call1_v14 : Ref sig .tc := ⟨.hbm, 70, rfl⟩
abbrev main_v25 : Ref sig .tc := ⟨.hbm, 71, rfl⟩
abbrev main_cst_3 : Ref sig .tc := ⟨.hbm, 72, rfl⟩
abbrev main_v26 : Ref sig .tc := ⟨.hbm, 73, rfl⟩
abbrev main_cst_4 : Ref sig .tc := ⟨.hbm, 74, rfl⟩
abbrev main_v27 : Ref sig .tc := ⟨.hbm, 75, rfl⟩
abbrev main_v28 : Ref sig .tc := ⟨.hbm, 76, rfl⟩

abbrev nD : Nat := 1
abbrev τ : Topo := Topo.v7x

variable {F : FTy → Type} [FloatOps F]

class Facts₀ : Prop where
  transposes_S512x1024_S1024x512_1_0 : S512x1024.Transposes [1, 0] S1024x512
  bcast_S512_S1x512_1 : S512.BroadcastsInDim S1x512 (![1] : Fin 1 → Fin S1x512.rank)
  bcast_S1x512_S256x512_0_1 : S1x512.BroadcastsInDim S256x512 (![0, 1] : Fin 2 → Fin S256x512.rank)
  reducesTo_S256x512_S256_d1 : S256x512.ReducesTo [1] S256
  h_S_ : 0 < S_.numel
  reducesTo_S256_S_d0 : S256.ReducesTo [0] S_
  transposes_S2048x512_S512x2048_1_0 : S2048x512.Transposes [1, 0] S512x2048
  bcast_S2048_S1x2048_1 : S2048.BroadcastsInDim S1x2048 (![1] : Fin 1 → Fin S1x2048.rank)
  bcast_S1x2048_S256x2048_0_1 : S1x2048.BroadcastsInDim S256x2048 (![0, 1] : Fin 2 → Fin S256x2048.rank)
  bcast_S256x512_S256x1x512_0_2 : S256x512.BroadcastsInDim S256x1x512 (![0, 2] : Fin 2 → Fin S256x1x512.rank)
  bcast_S2048x512_S1x2048x512_1_2 : S2048x512.BroadcastsInDim S1x2048x512 (![1, 2] : Fin 2 → Fin S1x2048x512.rank)
  bcast_S256x1x512_S256x2048x512_0_1_2 : S256x1x512.BroadcastsInDim S256x2048x512 (![0, 1, 2] : Fin 3 → Fin S256x2048x512.rank)
  bcast_S1x2048x512_S256x2048x512_0_1_2 : S1x2048x512.BroadcastsInDim S256x2048x512 (![0, 1, 2] : Fin 3 → Fin S256x2048x512.rank)
  reducesTo_S256x2048x512_S256x2048_d2 : S256x2048x512.ReducesTo [2] S256x2048
  reducesTo_S256x2048_S256_d1 : S256x2048.ReducesTo [1] S256
  bcast_S_S256 : S_.BroadcastsInDim S256 (![] : Fin 0 → Fin S256.rank)
  bcast_S256_S256x1_0 : S256.BroadcastsInDim S256x1 (![0] : Fin 1 → Fin S256x1.rank)
  bcast_S256x1_S256x2048_0_1 : S256x1.BroadcastsInDim S256x2048 (![0, 1] : Fin 2 → Fin S256x2048.rank)
  bcast_S_S256x1 : S_.BroadcastsInDim S256x1 (![] : Fin 0 → Fin S256x1.rank)
  shapeCasts_S256x1_S256x1x1 : S256x1.ShapeCasts S256x1x1
  bcast_S_S256x1x1 : S_.BroadcastsInDim S256x1x1 (![] : Fin 0 → Fin S256x1x1.rank)
  bcast_S1_S1x1x1_2 : S1.BroadcastsInDim S1x1x1 (![2] : Fin 1 → Fin S1x1x1.rank)
  bcast_S1x1x1_S256x1x1_0_1_2 : S1x1x1.BroadcastsInDim S256x1x1 (![0, 1, 2] : Fin 3 → Fin S256x1x1.rank)
  reducesTo_S256x1x1_S256x1_d2 : S256x1x1.ReducesTo [2] S256x1
  reducesTo_S256x1_S_d0_1 : S256x1.ReducesTo [0, 1] S_
  dot_S256x1024_S1024x512_S256x512_1_0_0_1_n_n_wf : DotDims.WF S256x1024 S1024x512 S256x512 [1] [0] [0] [1] [] []
  dot_S256x512_S512x2048_S256x2048_1_0_0_1_n_n_wf : DotDims.WF S256x512 S512x2048 S256x2048 [1] [0] [0] [1] [] []
  gather_S256x2048_S256x1x1_S256x1_n_1_0_0_1_2_11_wf : GatherDims.WF S256x2048 S256x1x1 S256x1 [] [1] [0] [1] [0] 2 ![1, 1]

variable [Facts₀]

def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf
def gather_S256x2048_S256x1x1_S256x1_n_1_0_0_1_2_11 : GatherDims S256x2048 S256x1x1 S256x1 where
  offsetDims := []
  collapsedSliceDims := [1]
  operandBatchingDims := [0]
  startIndicesBatchingDims := [0]
  startIndexMap := [1]
  indexVectorDim := 2
  sliceSizes := ![1, 1]
  wf := gather_S256x2048_S256x1x1_S256x1_n_1_0_0_1_2_11_wf

class Facts : Prop extends Facts₀ where

variable [Facts]
-- ==== Proof.Spec.lean ====
/-
  The specification: what the two programs compute, row by row, as extended-real functions of the argument arrays,
  and the algebra that joins the two forms.

  A batch row with input row `xr` has features `f d = (∑ k, xr k · Wb d k) + bb d`; its classifier output is
  `(∑ d, f d · Wm p d) + bm p`; its norm is `√(∑ d, f d · f d)`. Its squared distance to proxy `p` is, in the
  reference, `∑ d, (f d − px p d)²` and, in the kernel, the expanded form `∑ f² − 2 · ∑ f·px + ∑ 1·px²`; over
  the reals these agree (the binomial expansion summed over `d`), over the extended reals only when every
  term is finite. The loss of a row with label `q` is minus the log-softmax of the negated distances at `q`;
  the kernel selects the labelled distance by a one-hot sum and negates per row, the reference gathers the
  log-probability and negates the batch mean: the two agree because every row's log-probability is a real number.
-/
import Idealize.ShloMosaic.PureOps.Ideal
import Idealize.ShloMosaic.PureOps.Ideal.Laws
import Mathlib.Analysis.SpecialFunctions.Log.Basic
import Mathlib.Data.EReal.Operations

noncomputable section

namespace Cert.Spec

open Idealize.ShloMosaic

/-- The word of `2.0` in f32, read as an extended real. -/
abbrev two : EReal := Ideal.ofBits .f32 0x40000000#32
/-- The word of `1.0` in bf16, read as an extended real. -/
abbrev one : EReal := Ideal.ofBits .bf16 0x3F80#16
/-- The word of `256.0` in f32, read as an extended real. -/
abbrev c256 : EReal := Ideal.ofBits .f32 0x43800000#32

/-- Features of one batch row: the row times the backbone weights, plus the bias. -/
def featRow (xr : Fin 1024 → EReal) (Wb : Fin 512 → Fin 1024 → EReal) (bb : Fin 512 → EReal) (d : Fin 512) : EReal :=
  (∑ k : Fin 1024, xr k * Wb d k) + bb d

/-- Classifier output of a row with features `f`, at class `p`. -/
def outRow (f : Fin 512 → EReal) (Wm : Fin 2048 → Fin 512 → EReal) (bm : Fin 2048 → EReal) (p : Fin 2048) : EReal :=
  (∑ d : Fin 512, f d * Wm p d) + bm p

/-- Squared length of a feature row. -/
def sqRow (f : Fin 512 → EReal) : EReal := ∑ d : Fin 512, f d * f d

/-- Euclidean norm of a feature row. -/
def normRow (f : Fin 512 → EReal) : EReal := Ideal.sqrt (sqRow f)

/-- Squared distance to proxy `p`, expanded: `|f|² − 2 f·px_p + |px_p|²` (the kernel's form; `|px_p|²` as a product
    of a row of ones with the squared proxies). -/
def denK (f : Fin 512 → EReal) (px : Fin 2048 → Fin 512 → EReal) (p : Fin 2048) : EReal :=
  (sqRow f - two * (∑ d : Fin 512, f d * px p d)) + (∑ d : Fin 512, one * (px p d * px p d))

/-- Squared distance to proxy `p`, term by term: `∑ d, (f d − px p d)²` (the reference's form). -/
def denR (f : Fin 512 → EReal) (px : Fin 2048 → Fin 512 → EReal) (p : Fin 2048) : EReal :=
  ∑ d : Fin 512, (f d - px p d) * (f d - px p d)

/-- The kernel's loss of a row with distances `den` and label `q`: with `s p = 0 − den p`, `m = max s`,
    `l = ∑ exp (s − m)`, the labelled distance picked by a one-hot sum, it is `0 − (((0 − den q) − m) − log l)`. -/
def lossK (den : Fin 2048 → EReal) (q : Fin 2048) : EReal :=
  0 - (((0 - ∑ p : Fin 2048, if p = q then den p else 0)
        - (Finset.univ : Finset (Fin 2048)).fold max ⊥ (fun p => 0 - den p))
      - Ideal.log (∑ p : Fin 2048, Ideal.exp ((0 - den p) - (Finset.univ : Finset (Fin 2048)).fold max ⊥ (fun p => 0 - den p))))

/-- The reference's log-probability of class `q` under the softmax of the negated distances: with `s p = −den p`
    and `m = max ⊥ (max s)`, it is `(s q − m) − log (∑ exp (s − m))`. -/
def logpR (den : Fin 2048 → EReal) (q : Fin 2048) : EReal :=
  (-(den q) - max ⊥ ((Finset.univ : Finset (Fin 2048)).fold max ⊥ (fun p => -(den p))))
    - Ideal.log (∑ p : Fin 2048, Ideal.exp (-(den p) - max ⊥ ((Finset.univ : Finset (Fin 2048)).fold max ⊥ (fun p => -(den p)))))

/-! ## The literal words -/

theorem two_eq : two = ((2 : ℝ) : EReal) := by
  have h : ((8388608 : ℝ) * (2 ^ 22)⁻¹) = 2 := by norm_num
  simp [two, Ideal.ofBits, Ideal.ieee]
  exact_mod_cast h

theorem one_eq : one = ((1 : ℝ) : EReal) := by
  have h : ((128 : ℝ) * (2 ^ 7)⁻¹) = 1 := by norm_num
  simp [one, Ideal.ofBits, Ideal.ieee]
  exact_mod_cast h

theorem c256_eq : c256 = ((256 : ℝ) : EReal) := by
  have h : ((8388608 : ℝ) * (2 ^ 15)⁻¹) = 256 := by norm_num
  simp [c256, Ideal.ofBits, Ideal.ieee]
  exact_mod_cast h

/-! ## Real numbers inside the extended reals -/

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum, started from `⊥`, of finitely many real numbers over a nonempty index set is a real number. -/
theorem fold_max_real {ι : Type*} (s : Finset ι) (g : ι → ℝ) (hs : s.Nonempty) :
    ∃ M : ℝ, s.fold max ⊥ (fun i => (g i : EReal)) = (M : EReal) := by
  classical
  induction s using Finset.induction_on with
  | empty => exact absurd hs (by simp)
  | insert a s ha ih =>
    rw [Finset.fold_insert ha]
    rcases s.eq_empty_or_nonempty with rfl | hne
    · exact ⟨g a, by simp⟩
    · obtain ⟨M, hM⟩ := ih hne
      exact ⟨max (g a) M, by rw [hM]; exact (EReal.coe_strictMono.monotone.map_max).symm⟩

/-! ## Features and distances of finite inputs -/

/-- Features of real inputs are real. -/
theorem feat_real (xr : Fin 1024 → EReal) (Wb : Fin 512 → Fin 1024 → EReal) (bb : Fin 512 → EReal)
    (hx : ∀ k, ∃ r : ℝ, xr k = r) (hW : ∀ d k, ∃ r : ℝ, Wb d k = r) (hb : ∀ d, ∃ r : ℝ, bb d = r) (d : Fin 512) :
    ∃ r : ℝ, featRow xr Wb bb d = r := by
  choose x' hx' using hx
  choose W' hW' using hW
  choose b' hb' using hb
  refine ⟨(∑ k : Fin 1024, x' k * W' d k) + b' d, ?_⟩
  unfold featRow
  simp only [hx', hW', hb']
  push_cast [coe_sum]
  rfl

/-- Over real features and proxies the expanded distance is the term-by-term one (the binomial expansion, summed),
    and it is a real number. -/
theorem den_agree (f : Fin 512 → EReal) (px : Fin 2048 → Fin 512 → EReal)
    (hf : ∀ d, ∃ r : ℝ, f d = r) (hp : ∀ p d, ∃ r : ℝ, px p d = r) (p : Fin 2048) :
    denK f px p = denR f px p ∧ ∃ r : ℝ, denR f px p = r := by
  choose f' hf' using hf
  choose p' hp' using hp
  have hR : denR f px p = ((∑ d : Fin 512, (f' d - p' p d) * (f' d - p' p d) : ℝ) : EReal) := by
    unfold denR
    simp only [hf', hp']
    push_cast [coe_sum]
    rfl
  have hK : denK f px p = (((∑ d : Fin 512, f' d * f' d) - 2 * (∑ d : Fin 512, f' d * p' p d)
      + (∑ d : Fin 512, 1 * (p' p d * p' p d)) : ℝ) : EReal) := by
    unfold denK sqRow
    rw [two_eq, one_eq]
    simp only [hf', hp']
    push_cast [coe_sum]
    rfl
  refine ⟨?_, _, hR⟩
  rw [hK, hR, EReal.coe_eq_coe_iff, Finset.mul_sum, ← Finset.sum_sub_distrib, ← Finset.sum_add_distrib]
  exact Finset.sum_congr rfl (fun d _ => by ring)

/-! ## The loss of one row -/

/-- For real distances the kernel's row loss is minus the reference's log-probability, and that log-probability is
    a real number: the maximum of finitely many reals is real, each exponential is a positive real, so their sum is
    positive and its logarithm real. -/
theorem loss_row (den : Fin 2048 → EReal) (hden : ∀ p, ∃ r : ℝ, den p = r) (q : Fin 2048) :
    lossK den q = -(logpR den q) ∧ ∃ r : ℝ, logpR den q = r := by
  choose D hD using hden
  obtain ⟨M, hM⟩ := fold_max_real (Finset.univ : Finset (Fin 2048)) (fun p => -D p) Finset.univ_nonempty
  have hfold : (Finset.univ : Finset (Fin 2048)).fold max ⊥ (fun p => -(den p)) = (M : EReal) := by
    have e : (fun p => -(den p)) = fun p => ((-D p : ℝ) : EReal) := funext fun p => by rw [hD p, EReal.coe_neg]
    rw [e]; exact hM
  have hpos : 0 < ∑ p : Fin 2048, Real.exp (-D p - M) :=
    Finset.sum_pos (fun p _ => Real.exp_pos _) Finset.univ_nonempty
  have hsum : (∑ p : Fin 2048, Ideal.exp (-(den p) - (M : EReal))) = ((∑ p : Fin 2048, Real.exp (-D p - M) : ℝ) : EReal) := by
    rw [coe_sum]
    refine Finset.sum_congr rfl (fun p _ => ?_)
    rw [hD p, ← EReal.coe_neg, ← EReal.coe_sub, Ideal.exp_coe]
  have hlog : Ideal.log (∑ p : Fin 2048, Ideal.exp (-(den p) - (M : EReal)))
      = ((Real.log (∑ p : Fin 2048, Real.exp (-D p - M)) : ℝ) : EReal) := by
    rw [hsum, Ideal.log_coe, if_neg (not_le.mpr hpos)]
  have hR : logpR den q = (((-D q - M) - Real.log (∑ p : Fin 2048, Real.exp (-D p - M)) : ℝ) : EReal) := by
    unfold logpR
    rw [hfold, max_eq_right bot_le, hlog, hD q]
    push_cast
    rfl
  refine ⟨?_, _, hR⟩
  unfold lossK
  have hz : (fun p => (0 : EReal) - den p) = fun p => -(den p) := funext fun p => zero_sub _
  rw [hz, hfold, Finset.sum_ite_eq' Finset.univ q den, if_pos (Finset.mem_univ q)]
  simp only [zero_sub]
  rw [hlog, hR, hD q]
  push_cast
  rfl

/-! ## The batch mean -/

/-- Negating each of 256 real terms and then taking the mean is negating the mean. -/
theorem mean_neg (k a : Fin 256 → EReal) (h : ∀ b, k b = -(a b)) (hr : ∀ b, ∃ r : ℝ, a b = r) :
    Ideal.div (∑ b : Fin 256, k b) c256 = -(Ideal.div (∑ b : Fin 256, a b) c256) := by
  choose r hr' using hr
  have hk : (∑ b : Fin 256, k b) = ((∑ b : Fin 256, -(r b) : ℝ) : EReal) := by
    rw [coe_sum]; exact Finset.sum_congr rfl (fun b _ => by rw [h b, hr' b, EReal.coe_neg])
  have ha : (∑ b : Fin 256, a b) = ((∑ b : Fin 256, r b : ℝ) : EReal) := by
    rw [coe_sum]; exact Finset.sum_congr rfl (fun b _ => hr' b)
  rw [hk, ha, c256_eq, Ideal.div_coe (by norm_num : (256 : ℝ) ≠ 0), Ideal.div_coe (by norm_num : (256 : ℝ) ≠ 0),
    ← EReal.coe_mul, ← EReal.coe_mul, ← EReal.coe_neg, Finset.sum_neg_distrib, neg_mul]

end Cert.Spec

end
-- ==== Proof.Results.lean ====
/-
  The three results as functions of the argument arrays. Batch row `b` has the features `featOf b` of row `b`
  of `x`; the first result is the classifier output at every (row, class); the regulariser is the mean of the
  rows' feature norms; the loss is the mean, over the rows, of the row's loss at its label. The loss is written
  twice — as the kernel computes it (expanded distances, per-row negation) and as the reference does (term-by-term
  distances, the batch mean negated) — and the two are one number when every float argument is real.
-/
import proofs.«412143_j79731772883628_3_alg».proof.Proof.Spec
import Idealize.ShloMosaic.Lib.ValueIdx

noncomputable section

namespace Cert.Spec

open Idealize.ShloMosaic Idealize.ShloMosaic.ValueIdx

/-- A vector of extended reals of length `a`. -/
abbrev Arr1 (a : Nat) : Type := (⟨1, ![a]⟩ : Shape).Idx → EReal
/-- An `a × b` matrix of extended reals. -/
abbrev Arr2 (a b : Nat) : Type := (⟨2, ![a, b]⟩ : Shape).Idx → EReal
/-- A scalar result. -/
abbrev Arr0 : Type := (⟨0, ![]⟩ : Shape).Idx → EReal

section
variable (x : Arr2 256 1024) (Wb : Arr2 512 1024) (bb : Arr1 512) (Wm : Arr2 2048 512) (bm : Arr1 2048)
  (px : Arr2 2048 512) (y : Fin 256 → Fin 2048)

/-- Features of batch row `b`. -/
def featOf (b : Fin 256) : Fin 512 → EReal :=
  featRow (fun k => x (ix2 b k)) (fun d k => Wb (ix2 d k)) (fun d => bb (ix1 d))

/-- The classifier outputs, at every (row, class). -/
def outArr : Arr2 256 2048 :=
  fun i => outRow (featOf x Wb bb (i 0)) (fun p d => Wm (ix2 p d)) (fun p => bm (ix1 p)) (i 1)

/-- The regulariser: the mean of the rows' feature norms. -/
def regVal : Arr0 := fun _ => Ideal.div (∑ b : Fin 256, normRow (featOf x Wb bb b)) c256

/-- The loss as the kernel computes it: the mean of the rows' losses over the expanded distances. -/
def lossValK : Arr0 :=
  fun _ => Ideal.div (∑ b : Fin 256, lossK (denK (featOf x Wb bb b) (fun p d => px (ix2 p d))) (y b)) c256

/-- The loss as the reference computes it: minus the mean of the labelled log-probabilities over the term-by-term
    distances. -/
def lossValR : Arr0 :=
  fun _ => -(Ideal.div (∑ b : Fin 256, logpR (denR (featOf x Wb bb b) (fun p d => px (ix2 p d))) (y b)) c256)

/-- For real arguments the two losses are one number: the distances agree and are real (`den_agree`), each row's
    kernel loss is minus its log-probability, which is real (`loss_row`), and the mean commutes with the negation
    (`mean_neg`). -/
theorem lossVal_agree (hx : ∀ i, ∃ r : ℝ, x i = r) (hWb : ∀ i, ∃ r : ℝ, Wb i = r) (hbb : ∀ i, ∃ r : ℝ, bb i = r)
    (hpx : ∀ i, ∃ r : ℝ, px i = r) : lossValK x Wb bb px y = lossValR x Wb bb px y := by
  funext _
  have hf : ∀ b d, ∃ r : ℝ, featOf x Wb bb b d = r := fun b d =>
    feat_real _ _ _ (fun k => hx _) (fun d k => hWb _) (fun d => hbb _) d
  have hden : ∀ b p, denK (featOf x Wb bb b) (fun p d => px (ix2 p d)) p = denR (featOf x Wb bb b) (fun p d => px (ix2 p d)) p
      ∧ ∃ r : ℝ, denR (featOf x Wb bb b) (fun p d => px (ix2 p d)) p = r := fun b p =>
    den_agree _ _ (hf b) (fun p d => hpx _) p
  have hK : ∀ b, denK (featOf x Wb bb b) (fun p d => px (ix2 p d)) = denR (featOf x Wb bb b) (fun p d => px (ix2 p d)) :=
    fun b => funext fun p => (hden b p).1
  show Ideal.div _ c256 = -(Ideal.div _ c256)
  refine mean_neg _ _ (fun b => ?_) (fun b => (loss_row _ (fun p => (hden b p).2) (y b)).2)
  rw [hK b]
  exact (loss_row _ (fun p => (hden b p).2) (y b)).1

end

end Cert.Spec

end
-- ==== Proof.LibRowMax.lean ====
/-
  A row-wise maximum on the host, read at an index, at the ideal values.

  A one-operand reduce with a maximum body over axis 1 of an `m × n` array, started from the word of −∞, is at row `r`
  the fold of the binary maximum of the extended reals over the row's `n` entries, started from `⊥`.
-/
import Idealize.ShloMosaic.PureOps.Reduce
import Idealize.ShloMosaic.PureOps.Ideal.Laws
import Idealize.ShloMosaic.Lib.ValueIdx

noncomputable section

namespace Cert.LibRowMax

open Idealize.ShloMosaic Idealize.ShloMosaic.ValueIdx

/-- The f32 word of −∞ is the bottom of the extended reals. -/
theorem ofBits_neg_inf_f32 : Ideal.ofBits .f32 0xFF800000#32 = (⊥ : EReal) := by
  simp [Ideal.ofBits, Ideal.ieee]

/-- The reduced index `r` with column `k` put back is (r, k). -/
theorem lift_row {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- From −∞ the host's reduce with a maximum body along the rows, at row `r`, is the fold of `max` from `⊥` over the row. -/
theorem hostReduce_max_row {m n : Nat} (x : FVec Ideal ⟨2, ![m, n]⟩ .f32)
    (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (r : Fin m) :
    Host.reduce FloatOps.maximumf x (constant (⟨0, ![]⟩ : Shape) .f32 0xFF800000#32) h' hu (ix1 r)
      = (Finset.univ : Finset (Fin n)).fold max (⊥ : EReal) (fun J => x (ix2 r J)) := by
  rw [Host.reduce_eq_fold_single FloatOps.maximumf x _ h' h hu]
  have hf : (x ∘ h.lift (ix1 r)) = fun k : Fin n => x (ix2 r k) := funext fun k => congrArg x (lift_row h r k)
  have hi : (constant (⟨0, ![]⟩ : Shape) .f32 0xFF800000#32 : FVec Ideal ⟨0, ![]⟩ .f32) (Shape.Idx.first hu) = (⊥ : EReal) :=
    ofBits_neg_inf_f32
  rw [hi]
  exact congrArg (fun f => Finset.fold max (⊥ : EReal) f (Finset.univ : Finset (Fin n))) hf

/-- info: 'Cert.LibRowMax.hostReduce_max_row' depends on axioms: [propext, Classical.choice, Quot.sound] -/
#guard_msgs in #print axioms hostReduce_max_row

end Cert.LibRowMax

end
-- ==== Proof.RefValue.lean ====
/-
  The reference's three results, read from its generated stages, are the specification's functions of the
  argument arrays: the classifier outputs, the mean of the rows' feature norms, and minus the mean of the labelled
  log-probabilities (the labels being class words, the gather's range test passes and its wrap of negative words
  does nothing).
-/
import proofs.«412143_j79731772883628_3_alg».proof.Proof.RefRead
import proofs.«412143_j79731772883628_3_alg».proof.Proof.Results
import proofs.«412143_j79731772883628_3_alg».proof.Proof.LibRowMax
import Idealize.ShloMosaic.PureOps.Ideal.Laws
import Idealize.ShloMosaic.Lib.ValueIdx
import Idealize.ShloMosaic.Lib.Pipeline.Value
import Idealize.ShloMosaic.Lib.StableHlo.Predicate

noncomputable section

namespace Cert.ReferenceIdeal.RefValue

open Idealize.ShloMosaic Idealize.ShloMosaic.ValueIdx Cert.ReferenceIdeal Cert.ReferenceIdeal.ReadP

variable (x0 : (⟨S256x1024, .f32⟩ : BufTy).Contents (Elt Ideal)) (x1 : (⟨S256, .i32⟩ : BufTy).Contents (Elt Ideal))
  (x2 : (⟨S512x1024, .f32⟩ : BufTy).Contents (Elt Ideal)) (x3 : (⟨S512, .f32⟩ : BufTy).Contents (Elt Ideal))
  (x4 : (⟨S2048x512, .f32⟩ : BufTy).Contents (Elt Ideal)) (x5 : (⟨S2048, .f32⟩ : BufTy).Contents (Elt Ideal))
  (x6 : (⟨S2048x512, .f32⟩ : BufTy).Contents (Elt Ideal))

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The reference's features, read at (b, d). -/
theorem feat_apply (b : Fin 256) (d : Fin 512) :
    val_main_v4 (F := Ideal) x0 x2 x3 (ix2 b d) = Cert.Spec.featOf x0 x2 x3 b d := by
  have hl : ∀ k : Fin 1024, lidx_main_v1 (ix2 b d) k = ix2 b k := fun k =>
    funext fun a => Fin.ext (by match a with | ⟨0, _⟩ => rfl | ⟨1, _⟩ => rfl)
  have hr : ∀ k : Fin 1024, idx_main_v0 (ridx_main_v1 (ix2 b d) k) = ix2 d k := fun k =>
    funext fun a => Fin.ext (by match a with | ⟨0, _⟩ => rfl | ⟨1, _⟩ => rfl)
  have hb : idx_main_v2 (idx_main_v3 (ix2 b d)) = ix1 d :=
    funext fun a => Fin.ext (by match a with | ⟨0, _⟩ => rfl)
  rw [val_main_v4_apply, val_main_v1_apply, val_main_v3_apply, val_main_v2_apply]
  simp only [val_main_v0_apply, hl, hr, hb, Ideal.addf_def]
  rfl

/-- The first result: the classifier outputs. -/
theorem ref_out : val_main_v14 (F := Ideal) x0 x2 x3 x4 x5 = Cert.Spec.outArr x0 x2 x3 x4 x5 := by
  funext i
  obtain ⟨b, p, rfl⟩ : ∃ (b : Fin 256) (p : Fin 2048), i = ix2 b p := ⟨i 0, i 1, eq_ix2 i⟩
  have hl : ∀ k : Fin 512, lidx_main_v11 (ix2 b p) k = ix2 b k := fun k =>
    funext fun a => Fin.ext (by match a with | ⟨0, _⟩ => rfl | ⟨1, _⟩ => rfl)
  have hr : ∀ k : Fin 512, idx_main_v10 (ridx_main_v11 (ix2 b p) k) = ix2 p k := fun k =>
    funext fun a => Fin.ext (by match a with | ⟨0, _⟩ => rfl | ⟨1, _⟩ => rfl)
  have hb : idx_main_v12 (idx_main_v13 (ix2 b p)) = ix1 p :=
    funext fun a => Fin.ext (by match a with | ⟨0, _⟩ => rfl)
  rw [val_main_v14_apply, val_main_v11_apply, val_main_v13_apply, val_main_v12_apply]
  simp only [val_main_v10_apply, hl, hr, hb, feat_apply, Ideal.addf_def]
  rfl

/-- The squared length of a row of the reference's features. -/
theorem sq_apply (b : Fin 256) :
    val_main_v6 (F := Ideal) x0 x2 x3 (ix1 b) = Cert.Spec.sqRow (Cert.Spec.featOf x0 x2 x3 b) := by
  have hi : ∀ k : Fin 512, idx_main_v6 (ix1 b) k = ix2 b k := fun k =>
    funext fun a => Fin.ext (by match a with | ⟨0, _⟩ => rfl | ⟨1, _⟩ => rfl)
  rw [val_main_v6_apply, val_main_cst_apply]
  simp only [val_main_v5_apply, hi, feat_apply, Ideal.mulf_def, Ideal.ofBits_def, Ideal.ofBits_zero_f32, zero_add]
  rfl

/-- The third result: the mean of the rows' feature norms. -/
theorem ref_reg : val_main_v9 (F := Ideal) x0 x2 x3 = Cert.Spec.regVal x0 x2 x3 := by
  funext i
  rw [val_main_v9_apply, val_main_v8_apply, val_main_cst_0_apply, val_main_cst_1_apply, sum_idx1]
  simp only [val_main_v7_apply, sq_apply, Ideal.hostUnary_sqrt_def, Ideal.hostDivf_def, Ideal.ofBits_def,
    Ideal.ofBits_zero_f32, zero_add]
  rfl

/-- The reference's squared distances, read at (b, p). -/
theorem den_apply (b : Fin 256) (p : Fin 2048) :
    val_main_v21 (F := Ideal) x0 x2 x3 x6 (ix2 b p)
      = Cert.Spec.denR (Cert.Spec.featOf x0 x2 x3 b) (fun p d => x6 (ix2 p d)) p := by
  have hi : ∀ k : Fin 512, idx_main_v21 (ix2 b p) k = ix3 b p k := fun k =>
    funext fun a => Fin.ext (by match a with | ⟨0, _⟩ => rfl | ⟨1, _⟩ => rfl | ⟨2, _⟩ => rfl)
  have hf : ∀ k : Fin 512, idx_main_v15 (idx_main_v17 (ix3 b p k)) = ix2 b k := fun k =>
    funext fun a => Fin.ext (by match a with | ⟨0, _⟩ => rfl | ⟨1, _⟩ => rfl)
  have hp : ∀ k : Fin 512, idx_main_v16 (idx_main_v18 (ix3 b p k)) = ix2 p k := fun k =>
    funext fun a => Fin.ext (by match a with | ⟨0, _⟩ => rfl | ⟨1, _⟩ => rfl)
  rw [val_main_v21_apply, val_main_cst_2_apply]
  simp only [hi, val_main_v20_apply, val_main_v19_apply, val_main_v17_apply, val_main_v15_apply, val_main_v18_apply,
    val_main_v16_apply, hf, hp, feat_apply, Ideal.mulf_def, Ideal.subf_def, Ideal.ofBits_def, Ideal.ofBits_zero_f32, zero_add]
  rfl

/-- The negated distances, read at (b, p). -/
theorem negden_apply (b : Fin 256) (p : Fin 2048) :
    val_main_v22 (F := Ideal) x0 x2 x3 x6 (ix2 b p)
      = -(Cert.Spec.denR (Cert.Spec.featOf x0 x2 x3 b) (fun p d => x6 (ix2 p d)) p) := by
  rw [val_main_v22_apply, den_apply, Ideal.hostNegf_def, Ideal.negf_def]

/-- The row maximum the log-softmax subtracts, at row b. -/
theorem rowmax_apply (b : Fin 256) :
    val_main_call0_v2 (F := Ideal) x0 x2 x3 x6 (ix1 b)
      = max ⊥ ((Finset.univ : Finset (Fin 2048)).fold max ⊥
          (fun p => -(Cert.Spec.denR (Cert.Spec.featOf x0 x2 x3 b) (fun p d => x6 (ix2 p d)) p))) := by
  have h0 : val_main_call0_v0 (F := Ideal) x0 x2 x3 x6 (ix1 b)
      = (Finset.univ : Finset (Fin 2048)).fold max (⊥ : EReal) (fun J => val_main_v22 (F := Ideal) x0 x2 x3 x6 (ix2 b J)) :=
    Cert.LibRowMax.hostReduce_max_row (m := 256) (n := 2048) (val_main_v22 (F := Ideal) x0 x2 x3 x6)
      Cert.ReferenceIdeal.Gen.reducesTo_S256x2048_S256_d1 (by decide) Cert.ReferenceIdeal.Gen.h_S_ b
  have h22 : (fun J : Fin 2048 => val_main_v22 (F := Ideal) x0 x2 x3 x6 (ix2 b J))
      = fun p => -(Cert.Spec.denR (Cert.Spec.featOf x0 x2 x3 b) (fun p d => x6 (ix2 p d)) p) :=
    funext fun J => negden_apply x0 x2 x3 x6 b J
  rw [val_main_call0_v2_apply, val_main_call0_v1_apply, val_main_call0_cst_0_apply, h0, h22, Ideal.maximumf_def,
    Ideal.ofBits_def, Cert.LibRowMax.ofBits_neg_inf_f32]

/-- The reference's log-probabilities, read at (b, p). -/
theorem logp_apply (b : Fin 256) (p : Fin 2048) :
    val_main_v23 (F := Ideal) x0 x2 x3 x6 (ix2 b p)
      = Cert.Spec.logpR (Cert.Spec.denR (Cert.Spec.featOf x0 x2 x3 b) (fun p d => x6 (ix2 p d))) p := by
  have hm : ∀ q : Fin 2048, idx_main_call0_v3 (idx_main_call0_v4 (ix2 b q)) = ix1 b := fun q =>
    funext fun a => Fin.ext (by match a with | ⟨0, _⟩ => rfl)
  have hs : idx_main_call0_v8 (idx_main_call0_v10 (ix2 b p)) = ix1 b :=
    funext fun a => Fin.ext (by match a with | ⟨0, _⟩ => rfl)
  have hk : ∀ k : Fin 2048, idx_main_call0_v7 (ix1 b) k = ix2 b k := fun k =>
    funext fun a => Fin.ext (by match a with | ⟨0, _⟩ => rfl | ⟨1, _⟩ => rfl)
  have h5 : ∀ q : Fin 2048, val_main_call0_v5 (F := Ideal) x0 x2 x3 x6 (ix2 b q)
      = -(Cert.Spec.denR (Cert.Spec.featOf x0 x2 x3 b) (fun p d => x6 (ix2 p d)) q)
        - max ⊥ ((Finset.univ : Finset (Fin 2048)).fold max ⊥
          (fun p => -(Cert.Spec.denR (Cert.Spec.featOf x0 x2 x3 b) (fun p d => x6 (ix2 p d)) p))) := fun q => by
    rw [val_main_call0_v5_apply, val_main_call0_v4_apply, val_main_call0_v3_apply, hm, negden_apply, rowmax_apply,
      Ideal.subf_def]
  rw [val_main_v23_apply, val_main_call0_v10_apply, val_main_call0_v9_apply, val_main_call0_v8_apply, hs,
    val_main_call0_v7_apply, val_main_call0_cst_1_apply]
  simp only [hk, val_main_call0_v6_apply, h5, Ideal.subf_def, Ideal.hostUnary_exp_def, Ideal.hostUnary_log_def,
    Ideal.ofBits_def, Ideal.ofBits_zero_f32, zero_add]
  rfl

/-- A fold of the one-bit conjunction, started from the set bit, over set bits is the set bit. -/
theorem fold_andi_one {ι : Type} [DecidableEq ι] (s : Finset ι) (g : ι → BitVec 1) (hg : ∀ k, g k = 1#1) :
    s.fold IntOp.andi 1#1 g = 1#1 := by
  induction s using Finset.induction_on with
  | empty => rfl
  | insert a s ha ih => rw [Finset.fold_insert ha, ih, hg]; rfl

local notation "gD" => gather_S256x2048_S256x1x1_S256x1_n_1_0_0_1_2_11

/-- The gather of one element per row: operand axis 0 is paired with the start indices' axis 0, and the one start
    component addresses operand axis 1. Row `b` of the result is the operand's row `b` at the row's start word, read
    signed and clamped into `[0, 2047]`. -/
theorem gather_row_apply {α : Type} (x : S256x2048.Idx → α) (idx : IVec S256x1x1 32) (b : Fin 256) (q : Fin 2048)
    (hq : min (idx (ix3 b 0 0)).toInt.toNat 2047 = q.val) :
    Host.gather gD x idx (ix2 b (0 : Fin 1)) = x (ix2 b q) := by
  unfold Host.gather
  refine congrArg x (funext fun a => Fin.ext ?_)
  match a with
  | ⟨0, _⟩ =>
    show GatherDims.start gD (ix2 b (0 : Fin 1)) idx (0 : Fin 2) + GatherDims.batchCoord gD (ix2 b (0 : Fin 1)) (0 : Fin 2)
      + GatherDims.offCoord gD (ix2 b (0 : Fin 1)) (0 : Fin 2) = b.val
    rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ GatherDims.operandBatchingDims gD from List.mem_singleton.mpr rfl), Nat.add_zero,
      Nat.zero_add]
    rfl
  | ⟨1, _⟩ =>
    show GatherDims.start gD (ix2 b (0 : Fin 1)) idx (1 : Fin 2) + GatherDims.batchCoord gD (ix2 b (0 : Fin 1)) (1 : Fin 2)
      + GatherDims.offCoord gD (ix2 b (0 : Fin 1)) (1 : Fin 2) = q.val
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ GatherDims.startIndexMap gD from List.mem_singleton.mpr rfl)]
    have hsi : GatherDims.siIdx gD (ix2 b (0 : Fin 1)) ⟨List.idxOf (1 : Fin 2) (GatherDims.startIndexMap gD),
        List.idxOf_lt_length_iff.2 (List.mem_singleton.mpr rfl)⟩ = ix3 b 0 0 := by
      funext c; refine Fin.ext ?_
      match c with
      | ⟨0, _⟩ => rfl
      | ⟨1, _⟩ => rfl
      | ⟨2, _⟩ => rfl
    rw [hsi]
    exact hq

/-- The start word the gather reads at row `b`: the label word, which is non-negative as a signed word, so the wrap
    of negative words leaves it. -/
theorem start_apply (y : Fin 256 → Fin 2048) (hy : ∀ b : Fin 256, x1 (ix1 b) = BitVec.ofNat 32 (y b).val) (b : Fin 256) :
    val_main_call1_v5 (F := Ideal) x1 (ix3 b 0 0) = BitVec.ofNat 32 (y b).val := by
  have hi : idx_main_call1_v5 (ix3 b 0 0) = ix2 b (0 : Fin 1) := funext fun a => Fin.ext (by
    match a with
    | ⟨0, _⟩ => show ((b.val * 1 + 0) * 1 + 0) / 1 = b.val; omega
    | ⟨1, _⟩ => rfl)
  have h24 : val_main_v24 (F := Ideal) x1 (ix2 b (0 : Fin 1)) = BitVec.ofNat 32 (y b).val := by
    rw [val_main_v24_apply, ← hy b]
    exact congrArg x1 (funext fun a => Fin.ext (by match a with | ⟨0, _⟩ => rfl))
  have hlt : (BitVec.ofNat 32 (y b).val).toNat < 2 ^ 31 := by
    rw [BitVec.toNat_ofNat]; have := (y b).isLt; omega
  have hc : IntOp.cmpi .slt (BitVec.ofNat 32 (y b).val) 0#32 = 0#1 :=
    eq_zero_of_ne_one (fun h => Nat.not_lt_zero _ ((StableHlo.Predicate.slt_iff_toNat hlt (by decide)).mp h))
  rw [val_main_call1_v5_apply, hi, val_main_call1_v4_apply, val_main_call1_v1_apply, h24, val_main_call1_v0_apply,
    val_main_call1_c_apply, hc, select_zero]

/-- The gather's range test passes at every row: the start word lies in `[0, 2047]`. -/
theorem inrange_apply (y : Fin 256 → Fin 2048) (hy : ∀ b : Fin 256, x1 (ix1 b) = BitVec.ofNat 32 (y b).val) (b : Fin 256) :
    val_main_call1_v12 (F := Ideal) x1 (ix2 b (0 : Fin 1)) = 1#1 := by
  have hR : S256x1x1.Reduces [2] S256x1 := by decide
  have hlt : (BitVec.ofNat 32 (y b).val).toNat < 2 ^ 31 := by
    rw [BitVec.toNat_ofNat]; have := (y b).isLt; omega
  have hge : IntOp.cmpi .sge (BitVec.ofNat 32 (y b).val) 0#32 = 1#1 :=
    (StableHlo.Predicate.sge_iff_toNat hlt (by decide)).mpr (by show (0#32).toNat ≤ _; exact Nat.zero_le _)
  have hle : IntOp.cmpi .sle (BitVec.ofNat 32 (y b).val) 2047#32 = 1#1 :=
    (StableHlo.Predicate.sle_iff_toNat hlt (by decide)).mpr (by
      rw [BitVec.toNat_ofNat, BitVec.toNat_ofNat]; have := (y b).isLt; omega)
  unfold val_main_call1_v12
  rw [Host.reduce_eq_fold_single IntOp.andi _ _ Cert.ReferenceIdeal.Gen.reducesTo_S256x1x1_S256x1_d2 hR
    Cert.ReferenceIdeal.Gen.h_S_]
  refine fold_andi_one _ _ (fun k => ?_)
  have hk : hR.lift (ix2 b (0 : Fin 1)) k = ix3 b 0 0 := by
    funext c; apply Fin.ext
    fin_cases c
    · rfl
    · rfl
    · have h1 : k.val < 1 := k.isLt
      show k.val = 0
      omega
  show val_main_call1_v11 (F := Ideal) x1 (hR.lift (ix2 b (0 : Fin 1)) k) = 1#1
  rw [hk, val_main_call1_v11_apply, val_main_call1_v7_apply, val_main_call1_v10_apply, start_apply x1 y hy b,
    val_main_call1_v6_apply, val_main_call1_c_2_apply, val_main_call1_v9_apply, val_main_call1_v8_apply,
    val_main_call1_c_1_apply, hge, hle]
  rfl

/-- The gathered element of row `b`: the log-probability of the row's label. -/
theorem taken_apply (y : Fin 256 → Fin 2048) (hy : ∀ b : Fin 256, x1 (ix1 b) = BitVec.ofNat 32 (y b).val) (b : Fin 256) :
    val_main_v25 (F := Ideal) x0 x1 x2 x3 x6 (ix2 b (0 : Fin 1))
      = Cert.Spec.logpR (Cert.Spec.denR (Cert.Spec.featOf x0 x2 x3 b) (fun p d => x6 (ix2 p d))) (y b) := by
  have hq : min (val_main_call1_v5 (F := Ideal) x1 (ix3 b 0 0)).toInt.toNat 2047 = (y b).val := by
    rw [start_apply x1 y hy b, StableHlo.Predicate.toInt_ofNat_small _ (by have := (y b).isLt; omega), Int.toNat_natCast]
    have := (y b).isLt; omega
  rw [val_main_v25_apply, inrange_apply x1 y hy b, select_one]
  unfold val_main_call1_v13
  rw [gather_row_apply _ _ b (y b) hq, logp_apply]

/-- The second result, when the labels are class words: minus the mean of the labelled log-probabilities. -/
theorem ref_loss (y : Fin 256 → Fin 2048) (hy : ∀ b : Fin 256, x1 (ix1 b) = BitVec.ofNat 32 (y b).val) :
    val_main_v28 (F := Ideal) x0 x1 x2 x3 x6 = Cert.Spec.lossValR x0 x2 x3 x6 y := by
  funext i
  rw [val_main_v28_apply, val_main_v27_apply, val_main_v26_apply, val_main_cst_3_apply, val_main_cst_4_apply, sum_idx2]
  simp only [Fin.sum_univ_one, taken_apply x0 x1 x2 x3 x6 y hy, Ideal.hostNegf_def, Ideal.negf_def, Ideal.hostDivf_def,
    Ideal.ofBits_def, Ideal.ofBits_zero_f32, zero_add]
  rfl

end Cert.ReferenceIdeal.RefValue

end
-- ==== Proof.LibColumn.lean ====
/-
  Two layout readings for a vector used as a COLUMN: a length-`a` vector cast to shape `[a, 1]`, and an `[a, 1]`
  column broadcast along a second axis to `[a, b]`. Both read, at `(i, ·)`, the vector's entry `i`: the cast
  because row-major position `i · 1 + 0` is `i`, the broadcast because the unit axis is pinned at `0` and the
  long axis is carried over.
-/
import Idealize.ShloMosaic.Lib.Pipeline.Value
import Idealize.ShloMosaic.Lib.ValueIdx
import Idealize.ShloMosaic.Lib.ValueLayout

noncomputable section

namespace Cert.LibColumn

open Idealize.ShloMosaic Idealize.ShloMosaic.ValueIdx

variable {α : Type}

/-- A length-`a` vector cast to `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Together: a vector laid along the rows of an `[a, b]` array reads, at `(p, c)`, the vector at `p`. -/
theorem column_of_vector_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

end Cert.LibColumn

end
-- ==== Proof.KernelRow.lean ====
/-
  One grid point of the kernel, read at an index: what the body leaves in its two output blocks, as the
  specification's row functions of the blocks it loaded. Row `r` of the point's batch block has features
  `featRow` of row `r` of the input block; the first output block holds the classifier outputs of that row, the
  second holds the row's feature norm in column 1 (its column 0, the row's loss, is read in a module of its own).

  The road: each stored value is a tree of vector operations over the loaded blocks. Read at an index, a pointwise
  operation is the scalar operation on the operands there; a matrix product into a zero accumulator is the sum over
  the contracted coordinate of the operands' products (both products here contract the second axis of both operands:
  entry (r, d) is `∑ k, a (r, k) · b (d, k)`); a one-row array broadcast over the rows reads its one row; a sum along
  the lanes of row `r` is `∑ d` of the entries (r, d), and laid as a column it reads that sum at (r, 0); a
  concatenation of two columns reads, in column 1, the second column. At the ideal values the roundings to sixteen
  bits are the identity, so the features are exactly `featRow`.
-/
import proofs.«412143_j79731772883628_3_alg».proof.Proof.Gen.KernelIdeal.Frame
import proofs.«412143_j79731772883628_3_alg».proof.Proof.Spec
import proofs.«412143_j79731772883628_3_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Row

open Idealize.ShloMosaic Idealize.ShloMosaic.ValueIdx Cert.KernelIdeal Cert.KernelIdeal.Gen

variable (x0 : Vec Ideal S128x1024 .f32) (x1 : Vec Ideal S512x1024 .f32) (x2 : Vec Ideal S1x512 .f32)
  (x3 : Vec Ideal S2048x512 .f32) (x4 : Vec Ideal S1x2048 .f32) (x5 : Vec Ideal S2048x512 .f32) (x6 : Vec Ideal S128x1 .i32)

/-! ## The two matrix products at an index -/

/-- Left operand of the features' product, row axis: the output's row. -/
theorem lhs_featDot_0 (i : S128x512.Idx) (q : dot_S128x1024_S512x1024_S128x512_1_1_0_0_n_n.contr.Idx) :
    (dot_S128x1024_S512x1024_S128x512_1_1_0_0_n_n.lhsIdx i q 0).val = (i 0).val := by
  unfold DotDims.lhsIdx
  rw [dif_neg (show ¬(0 : Fin S128x1024.rank) ∈ dot_S128x1024_S512x1024_S128x512_1_1_0_0_n_n.lhsBatch by decide), dif_pos (show (0 : Fin S128x1024.rank) ∈ dot_S128x1024_S512x1024_S128x512_1_1_0_0_n_n.lhsNonContracting by decide)]
  rfl
/-- Left operand of the features' product, contracted axis: the contraction coordinate. -/
theorem lhs_featDot_1 (i : S128x512.Idx) (q : dot_S128x1024_S512x1024_S128x512_1_1_0_0_n_n.contr.Idx) :
    (dot_S128x1024_S512x1024_S128x512_1_1_0_0_n_n.lhsIdx i q 1).val = (q ⟨0, by decide⟩).val :=
  dot_S128x1024_S512x1024_S128x512_1_1_0_0_n_n.lhsIdx_val_of_single rfl i q
/-- Right operand of the features' product, row axis: the output's column. -/
theorem rhs_featDot_0 (i : S128x512.Idx) (q : dot_S128x1024_S512x1024_S128x512_1_1_0_0_n_n.contr.Idx) :
    (dot_S128x1024_S512x1024_S128x512_1_1_0_0_n_n.rhsIdx i q 0).val = (i 1).val := by
  unfold DotDims.rhsIdx
  rw [dif_neg (show ¬(0 : Fin S512x1024.rank) ∈ dot_S128x1024_S512x1024_S128x512_1_1_0_0_n_n.rhsBatch by decide), dif_pos (show (0 : Fin S512x1024.rank) ∈ dot_S128x1024_S512x1024_S128x512_1_1_0_0_n_n.rhsNonContracting by decide)]
  rfl
/-- Right operand of the features' product, contracted axis: the contraction coordinate. -/
theorem rhs_featDot_1 (i : S128x512.Idx) (q : dot_S128x1024_S512x1024_S128x512_1_1_0_0_n_n.contr.Idx) :
    (dot_S128x1024_S512x1024_S128x512_1_1_0_0_n_n.rhsIdx i q 1).val = (q ⟨0, by decide⟩).val :=
  dot_S128x1024_S512x1024_S128x512_1_1_0_0_n_n.rhsIdx_val_of_single rfl i q

/-- The features' product into zero, at (r, d): `∑ k, a (r, k) · b (d, k)`. -/
theorem featDot_apply (a : FVec Ideal S128x1024 .bf16) (b : FVec Ideal S512x1024 .bf16) (r : Fin 128) (d : Fin 512) :
    matmul dot_S128x1024_S512x1024_S128x512_1_1_0_0_n_n none a b (constant (F := Ideal) S128x512 .f32 0x00000000#32) (ix2 r d)
      = ∑ k : Fin 1024, a (ix2 r k) * b (ix2 d k) := by
  simp only [matmul]
  rw [Ideal.matmul_constant_zero_apply, ← Equiv.sum_comp (contrEquiv1 dot_S128x1024_S512x1024_S128x512_1_1_0_0_n_n 1024 rfl rfl).symm]
  refine Finset.sum_congr rfl fun k _ => ?_
  have hk := contrEquiv1_symm_val dot_S128x1024_S512x1024_S128x512_1_1_0_0_n_n 1024 rfl rfl k
  have el : dot_S128x1024_S512x1024_S128x512_1_1_0_0_n_n.lhsIdx (ix2 r d) ((contrEquiv1 dot_S128x1024_S512x1024_S128x512_1_1_0_0_n_n 1024 rfl rfl).symm k) = ix2 r k := funext fun c => Fin.ext (by
    match c with
    | ⟨0, _⟩ => exact lhs_featDot_0 _ _
    | ⟨1, _⟩ => exact (lhs_featDot_1 _ _).trans hk)
  have er : dot_S128x1024_S512x1024_S128x512_1_1_0_0_n_n.rhsIdx (ix2 r d) ((contrEquiv1 dot_S128x1024_S512x1024_S128x512_1_1_0_0_n_n 1024 rfl rfl).symm k) = ix2 d k := funext fun c => Fin.ext (by
    match c with
    | ⟨0, _⟩ => exact rhs_featDot_0 _ _
    | ⟨1, _⟩ => exact (rhs_featDot_1 _ _).trans hk)
  rw [el, er]

/-- Left operand of the classifier's product, row axis: the output's row. -/
theorem lhs_classDot_0 (i : S128x2048.Idx) (q : dot_S128x512_S2048x512_S128x2048_1_1_0_0_n_n.contr.Idx) :
    (dot_S128x512_S2048x512_S128x2048_1_1_0_0_n_n.lhsIdx i q 0).val = (i 0).val := by
  unfold DotDims.lhsIdx
  rw [dif_neg (show ¬(0 : Fin S128x512.rank) ∈ dot_S128x512_S2048x512_S128x2048_1_1_0_0_n_n.lhsBatch by decide), dif_pos (show (0 : Fin S128x512.rank) ∈ dot_S128x512_S2048x512_S128x2048_1_1_0_0_n_n.lhsNonContracting by decide)]
  rfl
/-- Left operand of the classifier's product, contracted axis: the contraction coordinate. -/
theorem lhs_classDot_1 (i : S128x2048.Idx) (q : dot_S128x512_S2048x512_S128x2048_1_1_0_0_n_n.contr.Idx) :
    (dot_S128x512_S2048x512_S128x2048_1_1_0_0_n_n.lhsIdx i q 1).val = (q ⟨0, by decide⟩).val :=
  dot_S128x512_S2048x512_S128x2048_1_1_0_0_n_n.lhsIdx_val_of_single rfl i q
/-- Right operand of the classifier's product, row axis: the output's column. -/
theorem rhs_classDot_0 (i : S128x2048.Idx) (q : dot_S128x512_S2048x512_S128x2048_1_1_0_0_n_n.contr.Idx) :
    (dot_S128x512_S2048x512_S128x2048_1_1_0_0_n_n.rhsIdx i q 0).val = (i 1).val := by
  unfold DotDims.rhsIdx
  rw [dif_neg (show ¬(0 : Fin S2048x512.rank) ∈ dot_S128x512_S2048x512_S128x2048_1_1_0_0_n_n.rhsBatch by decide), dif_pos (show (0 : Fin S2048x512.rank) ∈ dot_S128x512_S2048x512_S128x2048_1_1_0_0_n_n.rhsNonContracting by decide)]
  rfl
/-- Right operand of the classifier's product, contracted axis: the contraction coordinate. -/
theorem rhs_classDot_1 (i : S128x2048.Idx) (q : dot_S128x512_S2048x512_S128x2048_1_1_0_0_n_n.contr.Idx) :
    (dot_S128x512_S2048x512_S128x2048_1_1_0_0_n_n.rhsIdx i q 1).val = (q ⟨0, by decide⟩).val :=
  dot_S128x512_S2048x512_S128x2048_1_1_0_0_n_n.rhsIdx_val_of_single rfl i q

/-- The classifier's product into zero, at (r, p): `∑ d, a (r, d) · b (p, d)`. -/
theorem classDot_apply (a : FVec Ideal S128x512 .bf16) (b : FVec Ideal S2048x512 .bf16) (r : Fin 128) (p : Fin 2048) :
    matmul dot_S128x512_S2048x512_S128x2048_1_1_0_0_n_n none a b (constant (F := Ideal) S128x2048 .f32 0x00000000#32) (ix2 r p)
      = ∑ d : Fin 512, a (ix2 r d) * b (ix2 p d) := by
  simp only [matmul]
  rw [Ideal.matmul_constant_zero_apply, ← Equiv.sum_comp (contrEquiv1 dot_S128x512_S2048x512_S128x2048_1_1_0_0_n_n 512 rfl rfl).symm]
  refine Finset.sum_congr rfl fun k _ => ?_
  have hk := contrEquiv1_symm_val dot_S128x512_S2048x512_S128x2048_1_1_0_0_n_n 512 rfl rfl k
  have el : dot_S128x512_S2048x512_S128x2048_1_1_0_0_n_n.lhsIdx (ix2 r p) ((contrEquiv1 dot_S128x512_S2048x512_S128x2048_1_1_0_0_n_n 512 rfl rfl).symm k) = ix2 r k := funext fun c => Fin.ext (by
    match c with
    | ⟨0, _⟩ => exact lhs_classDot_0 _ _
    | ⟨1, _⟩ => exact (lhs_classDot_1 _ _).trans hk)
  have er : dot_S128x512_S2048x512_S128x2048_1_1_0_0_n_n.rhsIdx (ix2 r p) ((contrEquiv1 dot_S128x512_S2048x512_S128x2048_1_1_0_0_n_n 512 rfl rfl).symm k) = ix2 p k := funext fun c => Fin.ext (by
    match c with
    | ⟨0, _⟩ => exact rhs_classDot_0 _ _
    | ⟨1, _⟩ => exact (rhs_classDot_1 _ _).trans hk)
  rw [el, er]

/-! ## A row's lane sum, and a column pair's second column -/

/-- The sum along the lanes of a [128, 512] array, at row `r`: `∑ d` of the entries (r, d). -/
theorem rowSum_apply (v : FVec Ideal S128x512 .f32) (r : Fin 128) :
    multiReduction (F := Ideal) .add [1] S128 v 0x00000000#32 reduces_S128x512_S128 (.inl rfl) rfl (ix1 r)
      = ∑ d : Fin 512, v (ix2 r d) := by
  refine (Ideal.multiReduction_add_single v 0x00000000#32 reduces_S128x512_S128 (.inl rfl) rfl (ix1 r)).trans ?_
  refine Finset.sum_congr rfl fun d _ => congrArg v (funext fun c => Fin.ext ?_)
  match c with
  | ⟨0, _⟩ => rfl
  | ⟨1, _⟩ => rfl

/-- Two [128, 1] columns set side by side read, in column 1 of row `r`, the second column at (r, 0). -/
theorem concat_col1 (a b : FVec Ideal S128x1 .f32) (r : Fin 128) :
    concatenate S128x2 1 [⟨S128x1, a⟩, ⟨S128x1, b⟩] concatenates_S128x1_S128x1_S128x2_d1 (ix2 r (1 : Fin 2))
      = b (ix2 r (0 : Fin 1)) := by
  refine concatenate_pair_apply_right (1 : Fin S128x2.rank) a b concatenates_S128x1_S128x1_S128x2_d1 (ix2 r (1 : Fin 2)) rfl rfl
    (ix2 r (0 : Fin 1)) (fun c hc => ?_) rfl
  match c with
  | ⟨0, _⟩ => rfl
  | ⟨1, _⟩ => exact absurd rfl hc

/-- Whole-block rectangles start at zero on both axes. -/
theorem off_zero : (![0, 0] : Fin 2 → Nat) = fun _ => 0 := funext fun c => by
  match c with
  | ⟨0, _⟩ => rfl
  | ⟨1, _⟩ => rfl

/-- Features of row `r` of the point's input block. -/
abbrev feat (r : Fin 128) : Fin 512 → EReal :=
  Cert.Spec.featRow (fun k => x0 (ix2 r k)) (fun d k => x1 (ix2 d k)) (fun d => x2 (ix2 0 d))

/-! ## The stored values at an index -/

/-- The features' array at (r, d) is feature `d` of row `r`. -/
theorem pay2_apply (r : Fin 128) (d : Fin 512) :
    k0_pay2 (F := Ideal) x0 x1 x2 (ix2 r d) = feat x0 x1 x2 r d := by
  unfold k0_pay2
  rw [addf_apply, featDot_apply, shapeCast_self, broadcastTo_1b_ab_apply]
  rfl

/-- The column of squared lengths at (r, ·) is the squared length of row `r`'s features. -/
theorem pay3_apply (r : Fin 128) (u : Fin 1) :
    k0_pay3 (F := Ideal) x0 x1 x2 (ix2 r u) = Cert.Spec.sqRow (feat x0 x1 x2 r) := by
  unfold k0_pay3
  rw [Cert.LibColumn.shapeCast_a_a1_apply]
  refine (rowSum_apply _ r).trans ?_
  unfold Cert.Spec.sqRow
  refine Finset.sum_congr rfl fun d _ => ?_
  rw [mulf_apply, pay2_apply]

/-- The column of norms at (r, ·) is the norm of row `r`'s features. -/
theorem pay4_apply (r : Fin 128) (u : Fin 1) :
    k0_pay4 (F := Ideal) x0 x1 x2 (ix2 r u) = Cert.Spec.normRow (feat x0 x1 x2 r) := by
  unfold k0_pay4
  show FloatOps.sqrt (k0_pay3 (F := Ideal) x0 x1 x2 (ix2 r u)) = _
  rw [pay3_apply]
  rfl

/-- The features rounded for the second product: at the ideal values, the features. -/
theorem pay5_apply (r : Fin 128) (d : Fin 512) :
    k0_pay5 (F := Ideal) x0 x1 x2 (ix2 r d) = feat x0 x1 x2 r d := by
  unfold k0_pay5
  exact (truncf_apply (ψ := .bf16) (k0_pay2 (F := Ideal) x0 x1 x2) bitsLt_bf16_f32 (ix2 r d)).trans (pay2_apply x0 x1 x2 r d)

/-- The classifier outputs' array at (r, p) is the classifier output of row `r` at class `p`. -/
theorem pay6_apply (r : Fin 128) (p : Fin 2048) :
    k0_pay6 (F := Ideal) x0 x1 x2 x3 x4 (ix2 r p)
      = Cert.Spec.outRow (feat x0 x1 x2 r) (fun p d => x3 (ix2 p d)) (fun p => x4 (ix2 0 p)) p := by
  unfold k0_pay6
  rw [addf_apply, classDot_apply, shapeCast_self, broadcastTo_1b_ab_apply]
  unfold Cert.Spec.outRow
  refine congrArg (· + _) (Finset.sum_congr rfl fun d _ => ?_)
  rw [pay5_apply]
  rfl

/-! ## The two output blocks -/

/-- The first output block at (r, p): the classifier output of row `r` at class `p`. -/
theorem out7_apply (r : Fin 128) (p : Fin 2048) :
    out0_7 (F := Ideal) x0 x1 x2 x3 x4 x5 x6 (ix2 r p)
      = Cert.Spec.outRow (feat x0 x1 x2 r) (fun p d => x3 (ix2 p d)) (fun p => x4 (ix2 0 p)) p := by
  unfold out0_7
  rw [View.canon_unit_zero off_zero]
  simp only [View.ld_unit_zero (S := S128x1024) off_zero, View.ld_unit_zero (S := S512x1024) off_zero,
    View.ld_unit_zero (S := S1x512) off_zero, View.ld_unit_zero (S := S2048x512) off_zero,
    View.ld_unit_zero (S := S1x2048) off_zero]
  exact pay6_apply x0 x1 x2 x3 x4 r p

/-- The second output block at (r, 1): the norm of row `r`'s features. -/
theorem out8_norm_apply (r : Fin 128) :
    out0_8 (F := Ideal) x0 x1 x2 x3 x4 x5 x6 (ix2 r 1) = Cert.Spec.normRow (feat x0 x1 x2 r) := by
  unfold out0_8
  rw [View.canon_unit_zero off_zero]
  simp only [View.ld_unit_zero (S := S128x1024) off_zero, View.ld_unit_zero (S := S512x1024) off_zero,
    View.ld_unit_zero (S := S1x512) off_zero, View.ld_unit_zero (S := S2048x512) off_zero,
    View.ld_unit_zero (S := S128x1) off_zero]
  unfold k0_pay1
  exact (concat_col1 _ _ r).trans (pay4_apply x0 x1 x2 r 0)

end Cert.KernelIdeal.Row

end
-- ==== Proof.KernelLoss.lean ====
/-
  One grid point of the kernel, continued: column 0 of the second output block holds each row's loss. With the row's
  expanded squared distances `den p`, the body negates them (`0 − den`), takes the row maximum `m`, sums
  `exp (0 − den − m)` to `l`, picks the labelled distance by comparing a column counter with the row's label word
  and summing the selected entries, and stores `0 − (((0 − picked) − m) − log l)`.

  The road: the stored value is a tree of vector operations, read here at `(r, 0)`. A concatenation of two columns
  reads its first column there; a pointwise operation is the scalar operation on the operands' entries; a sum or a
  maximum along the lanes, kept as a column, reads at `(r, ·)` the sum or the maximum of row `r`'s entries, and that
  column spread back over the lanes reads the same at every `(r, p)`; the column counter at `(r, p)` is the word of
  `p`, the label column spread over the lanes is row `r`'s label word, and two words of numbers below `2048` are equal
  only when the numbers are, so the select keeps the entry at the label and the zero word elsewhere. The distances
  themselves are the row's squared length, minus twice the product with the proxies, plus the proxies' squared lengths
  taken as a product of a row of ones with their squares: each product contracts the second axis of both operands.
-/
import proofs.«412143_j79731772883628_3_alg».proof.Proof.KernelRow
import proofs.«412143_j79731772883628_3_alg».proof.Proof.LibColumn
import proofs.«412143_j79731772883628_3_alg».proof.Proof.LibRowMax
import Idealize.ShloMosaic.Lib.StableHlo.Predicate

noncomputable section

namespace Cert.KernelIdeal.Row

open Idealize.ShloMosaic Idealize.ShloMosaic.ValueIdx Cert.KernelIdeal Cert.KernelIdeal.Gen

variable (x0 : Vec Ideal S128x1024 .f32) (x1 : Vec Ideal S512x1024 .f32) (x2 : Vec Ideal S1x512 .f32)
  (x3 : Vec Ideal S2048x512 .f32) (x4 : Vec Ideal S1x2048 .f32) (x5 : Vec Ideal S2048x512 .f32) (x6 : Vec Ideal S128x1 .i32)

/-! ## Reading the operations that are not pointwise -/

/-- A sum along the rows of an `m × n` array is, at row `r`, the sum of that row's entries. -/
theorem laneSum_apply {m n : Nat} (src : FVec Ideal ⟨2, ![m, n]⟩ .f32)
    (h : (⟨2, ![m, n]⟩ : Shape).Reduces [1] (⟨1, ![m]⟩ : Shape)) (hφ : FKind.Formats .f32)
    (hacc : (0x00000000#32 : BitVec 32) = 0x00000000#32) (r : Fin m) :
    multiReduction (F := Ideal) .add [1] ⟨1, ![m]⟩ src 0x00000000#32 h hφ hacc (ix1 r) = ∑ p : Fin n, src (ix2 r p) := by
  refine (Ideal.multiReduction_add_single src 0x00000000#32 h hφ hacc (ix1 r)).trans ?_
  exact Finset.sum_congr rfl fun k _ => congrArg src (Cert.LibRowMax.lift_row h r k)

/-- A maximum along the rows of an `m × n` array, started from the word of −∞, is at row `r` the fold of `max`
    from `⊥` over that row's entries. -/
theorem laneMax_apply {m n : Nat} (src : FVec Ideal ⟨2, ![m, n]⟩ .f32)
    (h : (⟨2, ![m, n]⟩ : Shape).Reduces [1] (⟨1, ![m]⟩ : Shape)) (hφ : FKind.Formats .f32)
    (hacc : (0xFF800000#32 : BitVec 32) = 0xFF800000#32) (r : Fin m) :
    multiReduction (F := Ideal) .maximumf [1] ⟨1, ![m]⟩ src 0xFF800000#32 h hφ hacc (ix1 r)
      = (Finset.univ : Finset (Fin n)).fold max (⊥ : EReal) (fun p => src (ix2 r p)) := by
  refine (Ideal.multiReduction_maximumf_single src 0xFF800000#32 h hφ hacc (ix1 r)).trans ?_
  have hf : (src ∘ h.lift (ix1 r)) = fun k : Fin n => src (ix2 r k) :=
    funext fun k => congrArg src (Cert.LibRowMax.lift_row h r k)
  have hi : (FloatOps.ofBits (F := Ideal) .f32 0xFF800000#32) = (⊥ : EReal) := Cert.LibRowMax.ofBits_neg_inf_f32
  rw [hi]
  exact congrArg (fun f => Finset.fold max (⊥ : EReal) f (Finset.univ : Finset (Fin n))) hf

/-- Column 0 of two columns laid side by side is the first column. -/
theorem concat_col0 {α : Type} (x₁ x₂ : S128x1.Idx → α) (h : Shape.Concatenates [S128x1, S128x1] S128x2 1) (r : Fin 128) :
    concatenate S128x2 1 [⟨S128x1, x₁⟩, ⟨S128x1, x₂⟩] h (ix2 r (0 : Fin 2)) = x₁ (ix2 r (0 : Fin 1)) :=
  concatenate_pair_apply_left 1 x₁ x₂ h (ix2 r 0) rfl (ix2 r 0) fun b => by
    match b with
    | ⟨0, _⟩ => rfl
    | ⟨1, _⟩ => rfl

/-- The one-hot pick: comparing the column counter `p` with the label `q` (both below `2048`, so their 32-bit words
    are equal only when they are) selects the entry exactly when `p = q`, and the zero word otherwise. -/
theorem onehot_select (p q : Fin 2048) (a : EReal) :
    Scalar.select (IntOp.cmpi .eq (BitVec.ofNat 32 p.val) (BitVec.ofNat 32 q.val)) a (Ideal.ofBits .f32 0x00000000#32)
      = if p = q then a else 0 := by
  by_cases h : p = q
  · subst h
    rw [if_pos rfl, StableHlo.Predicate.cmpi_eq_iff.mpr rfl]
    exact select_one _ _
  · rw [if_neg h]
    have hne : ¬ IntOp.cmpi .eq (BitVec.ofNat 32 p.val) (BitVec.ofNat 32 q.val) = 1#1 := fun e => h (by
      have h2 := congrArg BitVec.toNat (StableHlo.Predicate.cmpi_eq_iff.mp e)
      rw [BitVec.toNat_ofNat, BitVec.toNat_ofNat] at h2
      have hp := p.isLt
      have hq := q.isLt
      exact Fin.ext (by omega))
    rw [eq_zero_of_ne_one hne, select_zero]
    exact Ideal.ofBits_zero_f32

/-- The exponential and the logarithm act entry by entry. -/
theorem exp_at {s : Shape} (v : FVec Ideal s .f32) (i : s.Idx) : exp v i = Ideal.exp (v i) := rfl
theorem log_at {s : Shape} (v : FVec Ideal s .f32) (i : s.Idx) : log v i = Ideal.log (v i) := rfl

/-- The row sums of a `128 × 2048` array, kept as a column: at `(r, ·)` the sum of row `r`. -/
theorem colSum_apply (src : FVec Ideal S128x2048 .f32) (h : S128x2048.Reduces [1] S128) (hφ : FKind.Formats .f32)
    (hacc : (0x00000000#32 : BitVec 32) = 0x00000000#32) (hc : S128.ShapeCasts S128x1) (r : Fin 128) (u : Fin 1) :
    shapeCast S128x1 (multiReduction (F := Ideal) .add [1] S128 src 0x00000000#32 h hφ hacc) hc (ix2 r u)
      = ∑ p : Fin 2048, src (ix2 r p) :=
  (Cert.LibColumn.shapeCast_a_a1_apply _ hc r u).trans (laneSum_apply src h hφ hacc r)

/-- The row maxima of a `128 × 2048` array, kept as a column: at `(r, ·)` the maximum of row `r`. -/
theorem colMax_apply (src : FVec Ideal S128x2048 .f32) (h : S128x2048.Reduces [1] S128) (hφ : FKind.Formats .f32)
    (hacc : (0xFF800000#32 : BitVec 32) = 0xFF800000#32) (hc : S128.ShapeCasts S128x1) (r : Fin 128) (u : Fin 1) :
    shapeCast S128x1 (multiReduction (F := Ideal) .maximumf [1] S128 src 0xFF800000#32 h hφ hacc) hc (ix2 r u)
      = (Finset.univ : Finset (Fin 2048)).fold max (⊥ : EReal) (fun p => src (ix2 r p)) :=
  (Cert.LibColumn.shapeCast_a_a1_apply _ hc r u).trans (laneMax_apply src h hφ hacc r)

/-- That column spread back over the columns: at `(r, p)` still the maximum of row `r`. -/
theorem spreadMax_apply (src : FVec Ideal S128x2048 .f32) (h : S128x2048.Reduces [1] S128) (hφ : FKind.Formats .f32)
    (hacc : (0xFF800000#32 : BitVec 32) = 0xFF800000#32) (hc : S128.ShapeCasts S128x1)
    (hb : S128x1.Broadcasts S128x2048) (r : Fin 128) (p : Fin 2048) :
    broadcastTo S128x2048 (shapeCast S128x1 (multiReduction (F := Ideal) .maximumf [1] S128 src 0xFF800000#32 h hφ hacc) hc) hb (ix2 r p)
      = (Finset.univ : Finset (Fin 2048)).fold max (⊥ : EReal) (fun p => src (ix2 r p)) :=
  (Cert.LibColumn.broadcastTo_a1_ab_apply _ hb r p).trans (colMax_apply src h hφ hacc hc r 0)

/-- The picked entry: at `(r, p)` the column counter is `p` and the label column spread over the columns is row
    `r`'s label word, so the select keeps `v (r, p)` exactly when `p` is the label. -/
theorem pick_apply (v : FVec Ideal S128x2048 .f32) (lab : Vec Ideal S128x1 .i32) (hi : S128x2048.Iotas .tc 32 [1])
    (hs : S128x1.ShapeCasts S128x1) (hb : S128x1.Broadcasts S128x2048) (r : Fin 128) (q : Fin 2048)
    (hq : lab (ix2 r 0) = BitVec.ofNat 32 q.val) (p : Fin 2048) :
    select (cmpi .eq (iota .tc S128x2048 32 [1] hi) (broadcastTo S128x2048 (shapeCast S128x1 lab hs) hb)) v
        (broadcast S128x2048 (FloatOps.ofBits (F := Ideal) .f32 0x00000000#32)) (ix2 r p)
      = if p = q then v (ix2 r p) else 0 := by
  have h1 : iota .tc S128x2048 32 [1] hi (ix2 r p) = BitVec.ofNat 32 p.val := iota_single_apply .tc S128x2048 32 1 hi (ix2 r p)
  have h2 : broadcastTo S128x2048 (shapeCast S128x1 lab hs) hb (ix2 r p) = BitVec.ofNat 32 q.val := by
    refine (Cert.LibColumn.broadcastTo_a1_ab_apply _ hb r p).trans ?_
    rw [shapeCast_self]
    exact hq
  show Scalar.select (IntOp.cmpi .eq (iota .tc S128x2048 32 [1] hi (ix2 r p)) (broadcastTo S128x2048 (shapeCast S128x1 lab hs) hb (ix2 r p)))
      (v (ix2 r p)) (Ideal.ofBits .f32 0x00000000#32) = _
  rw [h1, h2]
  exact onehot_select p q _

/-! ## The loss column -/

/-- Column 0 of the body's last value, over any distances `v33`, negated distances `v35` and label column `v44`
    whose row `r` names class `q`. -/
theorem pay1_loss (v12 : FVec Ideal S128x1 .f32) (v33 v35 : FVec Ideal S128x2048 .f32) (v44 : Vec Ideal S128x1 .i32)
    (r : Fin 128) (q : Fin 2048) (hq : v44 (ix2 r 0) = BitVec.ofNat 32 q.val) :
    k0_pay1 (F := Ideal) v12 v33 v35 v44 (ix2 r 0)
      = 0 - (((0 - ∑ p : Fin 2048, if p = q then v33 (ix2 r p) else 0)
            - (Finset.univ : Finset (Fin 2048)).fold max ⊥ (fun p => v35 (ix2 r p)))
          - Ideal.log (∑ p : Fin 2048, Ideal.exp (v35 (ix2 r p)
              - (Finset.univ : Finset (Fin 2048)).fold max ⊥ (fun p => v35 (ix2 r p))))) := by
  unfold k0_pay1
  refine (concat_col0 _ _ _ r).trans ?_
  simp only [subf_apply, broadcast_apply, log_at]
  rw [colMax_apply, colSum_apply, colSum_apply]
  simp only [exp_at, subf_apply, pick_apply v33 v44 _ _ _ r q hq]
  simp only [spreadMax_apply v35 reduces_S128x2048_S128 (.inl rfl) rfl shapeCasts_S128_S128x1 broadcasts_S128x1_S128x2048 r,
    Ideal.ofBits_def, Ideal.ofBits_zero_f32]

/-! ## The product with the row of ones

It contracts axis 1 of both operands: at `(u, p)` the result is the sum over `d` of the left operand at `(u, d)`
times the right operand at `(p, d)`. -/

theorem lhs_ones_0 (i : S1x2048.Idx) (q : dot_S1x512_S2048x512_S1x2048_1_1_0_0_n_n.contr.Idx) :
    (dot_S1x512_S2048x512_S1x2048_1_1_0_0_n_n.lhsIdx i q 0).val = (i 0).val := by
  unfold DotDims.lhsIdx
  rw [dif_neg (show ¬(0 : Fin S1x512.rank) ∈ dot_S1x512_S2048x512_S1x2048_1_1_0_0_n_n.lhsBatch by decide),
    dif_pos (show (0 : Fin S1x512.rank) ∈ dot_S1x512_S2048x512_S1x2048_1_1_0_0_n_n.lhsNonContracting by decide)]
  rfl
theorem lhs_ones_1 (i : S1x2048.Idx) (q : dot_S1x512_S2048x512_S1x2048_1_1_0_0_n_n.contr.Idx) :
    (dot_S1x512_S2048x512_S1x2048_1_1_0_0_n_n.lhsIdx i q 1).val = (q ⟨0, by decide⟩).val :=
  dot_S1x512_S2048x512_S1x2048_1_1_0_0_n_n.lhsIdx_val_of_single rfl i q
theorem rhs_ones_0 (i : S1x2048.Idx) (q : dot_S1x512_S2048x512_S1x2048_1_1_0_0_n_n.contr.Idx) :
    (dot_S1x512_S2048x512_S1x2048_1_1_0_0_n_n.rhsIdx i q 0).val = (i 1).val := by
  unfold DotDims.rhsIdx
  rw [dif_neg (show ¬(0 : Fin S2048x512.rank) ∈ dot_S1x512_S2048x512_S1x2048_1_1_0_0_n_n.rhsBatch by decide),
    dif_pos (show (0 : Fin S2048x512.rank) ∈ dot_S1x512_S2048x512_S1x2048_1_1_0_0_n_n.rhsNonContracting by decide)]
  rfl
theorem rhs_ones_1 (i : S1x2048.Idx) (q : dot_S1x512_S2048x512_S1x2048_1_1_0_0_n_n.contr.Idx) :
    (dot_S1x512_S2048x512_S1x2048_1_1_0_0_n_n.rhsIdx i q 1).val = (q ⟨0, by decide⟩).val :=
  dot_S1x512_S2048x512_S1x2048_1_1_0_0_n_n.rhsIdx_val_of_single rfl i q

/-- The `[1, 512] · [2048, 512]ᵀ` product into zeros, at `(u, p)`. -/
theorem ones_apply (L : FVec Ideal S1x512 .bf16) (R : FVec Ideal S2048x512 .bf16) (u : Fin 1) (p : Fin 2048) :
    matmul (F := Ideal) dot_S1x512_S2048x512_S1x2048_1_1_0_0_n_n none L R (constant (F := Ideal) S1x2048 .f32 0x00000000#32) (ix2 u p)
      = ∑ d : Fin 512, L (ix2 u d) * R (ix2 p d) := by
  refine (Ideal.matmul_constant_zero_apply dot_S1x512_S2048x512_S1x2048_1_1_0_0_n_n none L R (ix2 u p)).trans ?_
  rw [← Equiv.sum_comp (contrEquiv1 dot_S1x512_S2048x512_S1x2048_1_1_0_0_n_n 512 rfl rfl).symm]
  refine Finset.sum_congr rfl fun k _ => ?_
  have hk := contrEquiv1_symm_val dot_S1x512_S2048x512_S1x2048_1_1_0_0_n_n 512 rfl rfl k
  have el : dot_S1x512_S2048x512_S1x2048_1_1_0_0_n_n.lhsIdx (ix2 u p)
      ((contrEquiv1 dot_S1x512_S2048x512_S1x2048_1_1_0_0_n_n 512 rfl rfl).symm k) = ix2 u k := funext fun a => Fin.ext (by
    match a with
    | ⟨0, _⟩ => exact lhs_ones_0 _ _
    | ⟨1, _⟩ => exact (lhs_ones_1 _ _).trans hk)
  have er : dot_S1x512_S2048x512_S1x2048_1_1_0_0_n_n.rhsIdx (ix2 u p)
      ((contrEquiv1 dot_S1x512_S2048x512_S1x2048_1_1_0_0_n_n 512 rfl rfl).symm k) = ix2 p k := funext fun a => Fin.ext (by
    match a with
    | ⟨0, _⟩ => exact rhs_ones_0 _ _
    | ⟨1, _⟩ => exact (rhs_ones_1 _ _).trans hk)
  rw [el, er]

/-! ## The distances -/

/-- The expanded squared distance of row `r` to proxy `p`: the row's squared length spread over the columns, minus
    twice the cross product, plus the proxies' squared lengths (ones times squares) spread over the rows. -/
theorem dist_apply (r : Fin 128) (p : Fin 2048) :
    k0_pay7 (F := Ideal) x0 x1 x2 x5 (ix2 r p) = Cert.Spec.denK (feat x0 x1 x2 r) (fun p d => x5 (ix2 p d)) p := by
  unfold k0_pay7 Cert.Spec.denK
  simp only [addf_apply, subf_apply, mulf_apply, broadcast_apply, Cert.LibColumn.broadcastTo_a1_ab_apply,
    broadcastTo_1b_ab_apply, classDot_apply, ones_apply, truncf_apply, pay5_apply, pay3_apply, Ideal.ofBits_def]

/-- Its negation `0 − distance`. -/
theorem negdist_apply (r : Fin 128) (p : Fin 2048) :
    k0_pay8 (F := Ideal) x0 x1 x2 x5 (ix2 r p) = 0 - Cert.Spec.denK (feat x0 x1 x2 r) (fun p d => x5 (ix2 p d)) p := by
  unfold k0_pay8
  simp only [subf_apply, broadcast_apply, dist_apply, Ideal.ofBits_def, Ideal.ofBits_zero_f32]

/-! ## The second output block, column 0 -/

/-- The second output block at (r, 0): the loss of row `r`, when the block's label words name classes. -/
theorem out8_loss_apply (yq : Fin 128 → Fin 2048) (hy : ∀ r, x6 (ix2 r 0) = BitVec.ofNat 32 (yq r).val) (r : Fin 128) :
    out0_8 (F := Ideal) x0 x1 x2 x3 x4 x5 x6 (ix2 r 0)
      = Cert.Spec.lossK (Cert.Spec.denK (feat x0 x1 x2 r) (fun p d => x5 (ix2 p d))) (yq r) := by
  unfold out0_8
  rw [View.canon_unit_zero off_zero]
  simp only [View.ld_unit_zero (S := S128x1024) off_zero, View.ld_unit_zero (S := S512x1024) off_zero,
    View.ld_unit_zero (S := S1x512) off_zero, View.ld_unit_zero (S := S2048x512) off_zero,
    View.ld_unit_zero (S := S128x1) off_zero]
  refine (pay1_loss _ _ _ x6 r (yq r) (hy r)).trans ?_
  unfold Cert.Spec.lossK
  simp only [dist_apply, negdist_apply]

end Cert.KernelIdeal.Row

end
-- ==== Proof.KernelValue.lean ====
/-
  The idealized kernel's result arrays as functions of the argument arrays.

  The grid has two points; point `t` loads rows `128 t … 128 t + 127` of `x` and of the (clipped, reshaped) labels,
  and the whole of the five weight arrays, so row `r` of its block is batch row `128 t + r`. What it writes back to
  the two output arrays is therefore block `t` of one whole-array function each: the classifier outputs, and the
  pair (row loss, row norm). The two blocks tile each array, so after the run each array IS that function. The host
  lines after the call slice the two columns, sum them and divide by 256: the loss and the regulariser.
-/
import proofs.«412143_j79731772883628_3_alg».proof.Proof.Gen.KernelIdeal.Frame
import proofs.«412143_j79731772883628_3_alg».proof.Proof.KernelRow
import proofs.«412143_j79731772883628_3_alg».proof.Proof.KernelLoss
import proofs.«412143_j79731772883628_3_alg».proof.Proof.Results
import Idealize.ShloMosaic.Lib.Pipeline.Value
import Idealize.ShloMosaic.Lib.ValueIdx
import Idealize.ShloMosaic.Lib.StableHlo.Run
import Idealize.ShloMosaic.Lib.StableHlo.Predicate
import Idealize.ShloMosaic.PureOps.Ideal.Laws

set_option maxRecDepth 16384

noncomputable section

namespace Cert.KernelIdeal.Arr

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ) (ρ : Dev nD → PrngReg)

/-! ## Which rows a point's blocks are -/

/-- The printed index maps over the grid: the batch-blocked windows (x, the labels, both outputs) sit at block
    (t, 0), the weight windows at block (0, 0); and the grid has two points. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 ∧ t.val < 2 :=
  (by decide +kernel : ∀ t : Fin grid0.N, _)

/-- Batch row `128 t + r`: row `r` of point `t`'s block. -/
def row (t : Fin cfg0.N) (r : Fin 128) : Fin 256 := ⟨t.val * 128 + r.val, by
  have h := (idx_facts t).2.2.2.2.2.2.2.2.2.2.2.2.2.2.2.2.2.2; have := r.isLt; omega⟩

/-! ## The arrays the region finds -/

/-- The argument arrays, typed as the specification takes them. -/
abbrev X (c : Dev nD) : Cert.Spec.Arr2 256 1024 := m ((c : Thread nD τ).loc main_arg0)
abbrev WB (c : Dev nD) : Cert.Spec.Arr2 512 1024 := m ((c : Thread nD τ).loc main_arg2)
abbrev BB (c : Dev nD) : Cert.Spec.Arr1 512 := m ((c : Thread nD τ).loc main_arg3)
abbrev WM (c : Dev nD) : Cert.Spec.Arr2 2048 512 := m ((c : Thread nD τ).loc main_arg4)
abbrev BM (c : Dev nD) : Cert.Spec.Arr1 2048 := m ((c : Thread nD τ).loc main_arg5)
abbrev PX (c : Dev nD) : Cert.Spec.Arr2 2048 512 := m ((c : Thread nD τ).loc main_arg6)

/-- The bias reshaped to a row reads, at (0, d), the bias at `d`. -/
theorem v2_apply (c : Dev nD) (d : Fin 512) : V m c main_v2 (ix2 (0 : Fin 1) d) = BB m c (ix1 d) := by
  have e : (V m c main_v2 : S1x512.Idx → EReal) = shapeCast S1x512 (m ((c : Thread nD τ).loc main_arg3)) shapeCasts_S512_S1x512 := by
    dsimp only [Gen.V, Gen.V0]
    simp only [Gen.hostOps0, Gen.hostOps0_1, Gen.hostOps0_2, List.flatten_cons, List.flatten_nil, List.append_nil, List.cons_append, List.nil_append]
    after_results
    rfl
  rw [e]
  exact shapeCast_apply _ shapeCasts_S512_S1x512 _ _ (by
    rw [Shape.rowMajor_val_one, Shape.rowMajor_val_two]; show d.val = 0 * 512 + d.val; omega)

/-- The head bias reshaped to a row reads, at (0, p), the bias at `p`. -/
theorem v3_apply (c : Dev nD) (p : Fin 2048) : V m c main_v3 (ix2 (0 : Fin 1) p) = BM m c (ix1 p) := by
  have e : (V m c main_v3 : S1x2048.Idx → EReal) = shapeCast S1x2048 (m ((c : Thread nD τ).loc main_arg5)) shapeCasts_S2048_S1x2048 := by
    dsimp only [Gen.V, Gen.V0]
    simp only [Gen.hostOps0, Gen.hostOps0_1, Gen.hostOps0_2, List.flatten_cons, List.flatten_nil, List.append_nil, List.cons_append, List.nil_append]
    after_results
    rfl
  rw [e]
  exact shapeCast_apply _ shapeCasts_S2048_S1x2048 _ _ (by
    rw [Shape.rowMajor_val_one, Shape.rowMajor_val_two]; show p.val = 0 * 2048 + p.val; omega)

/-- Clipping a class word to [0, 2047] leaves it. -/
theorem clip_label (n : Nat) (hn : n < 2048) :
    IntOp.minsi 2047#32 (IntOp.maxsi 0#32 (BitVec.ofNat 32 n)) = BitVec.ofNat 32 n := by
  have hti : (BitVec.ofNat 32 n).toInt = n := StableHlo.Predicate.toInt_ofNat_small n (by omega)
  have h0 : (0#32 : BitVec 32).toInt = 0 := by decide
  have hh : (2047#32 : BitVec 32).toInt = 2047 := by decide
  have hmax : IntOp.maxsi 0#32 (BitVec.ofNat 32 n) = BitVec.ofNat 32 n := by
    unfold IntOp.maxsi
    split <;> rename_i hc <;> simp only [BitVec.slt, hti, h0, decide_eq_true_eq] at hc
    all_goals first | rfl | omega
  rw [hmax]
  unfold IntOp.minsi
  split <;> rename_i hc <;> simp only [BitVec.slt, hti, hh, decide_eq_true_eq] at hc
  all_goals first | rfl | omega

/-- The labels, clipped and reshaped to a column, read at (b, 0) the label of row `b` when the labels are class
    words. -/
theorem v1_apply (c : Dev nD) (y : Fin 256 → Fin 2048)
    (hy : ∀ b : Fin 256, m ((c : Thread nD τ).loc main_arg1) (ix1 b) = BitVec.ofNat 32 (y b).val) (b : Fin 256) :
    V m c main_v1 (ix2 b (0 : Fin 1)) = BitVec.ofNat 32 (y b).val := by
  have e : (V m c main_v1 : S256x1.Idx → BitVec 32) = shapeCast S256x1
      (minsi (broadcastInDim S256 ![] bcast_S_S256 (constantI S_ 32 2047#32))
        (maxsi (broadcastInDim S256 ![] bcast_S_S256 (constantI S_ 32 0#32)) (m ((c : Thread nD τ).loc main_arg1)))) shapeCasts_S256_S256x1 := by
    dsimp only [Gen.V, Gen.V0]
    simp only [Gen.hostOps0, Gen.hostOps0_1, Gen.hostOps0_2, List.flatten_cons, List.flatten_nil, List.append_nil, List.cons_append, List.nil_append]
    after_results
    rfl
  rw [e, shapeCast_apply _ shapeCasts_S256_S256x1 _ (ix1 b) (by
    rw [Shape.rowMajor_val_one, Shape.rowMajor_val_two]; show b.val = b.val * 1 + 0; omega)]
  show IntOp.minsi _ (IntOp.maxsi _ (m ((c : Thread nD τ).loc main_arg1) (ix1 b))) = _
  rw [hy b]
  exact clip_label _ (y b).isLt

/-! ## The blocks a point loads -/

theorem blk0 (c : Dev nD) (t : Fin cfg0.N) (r : Fin 128) (k : Fin 1024) :
    iblk m c 0 t (ix2 r k) = X m c (ix2 (row t r) k) := by
  unfold iblk
  show V m c main_arg0 (((cfg0.win 0).blk t).view.emb (ix2 r k)) = _
  rw [V_main_arg0]
  congr 1
  funext a; apply Fin.ext
  obtain ⟨e0, e1, _⟩ := idx_facts t
  match a with
  | ⟨0, _⟩ => show win0_0.index t (0 : Fin 2) * 128 + 1 * r.val = t.val * 128 + r.val; omega
  | ⟨1, _⟩ => show win0_0.index t (1 : Fin 2) * 1024 + 1 * k.val = k.val; omega

theorem blk1 (c : Dev nD) (t : Fin cfg0.N) (d : Fin 512) (k : Fin 1024) :
    iblk m c 1 t (ix2 d k) = WB m c (ix2 d k) := by
  unfold iblk
  show V m c main_arg2 (((cfg0.win 1).blk t).view.emb (ix2 d k)) = _
  rw [V_main_arg2]
  congr 1
  funext a; apply Fin.ext
  obtain ⟨_, _, e0, e1, _⟩ := idx_facts t
  match a with
  | ⟨0, _⟩ => show win0_1.index t (0 : Fin 2) * 512 + 1 * d.val = d.val; omega
  | ⟨1, _⟩ => show win0_1.index t (1 : Fin 2) * 1024 + 1 * k.val = k.val; omega

theorem blk2 (c : Dev nD) (t : Fin cfg0.N) (d : Fin 512) :
    iblk m c 2 t (ix2 (0 : Fin 1) d) = BB m c (ix1 d) := by
  unfold iblk
  show V m c main_v2 (((cfg0.win 2).blk t).view.emb (ix2 (0 : Fin 1) d)) = _
  rw [← v2_apply m c d]
  congr 1
  funext a; apply Fin.ext
  obtain ⟨_, _, _, _, e0, e1, _⟩ := idx_facts t
  match a with
  | ⟨0, _⟩ => show win0_2.index t (0 : Fin 2) * 1 + 1 * 0 = 0; omega
  | ⟨1, _⟩ => show win0_2.index t (1 : Fin 2) * 512 + 1 * d.val = d.val; omega

theorem blk3 (c : Dev nD) (t : Fin cfg0.N) (p : Fin 2048) (d : Fin 512) :
    iblk m c 3 t (ix2 p d) = WM m c (ix2 p d) := by
  unfold iblk
  show V m c main_arg4 (((cfg0.win 3).blk t).view.emb (ix2 p d)) = _
  rw [V_main_arg4]
  congr 1
  funext a; apply Fin.ext
  obtain ⟨_, _, _, _, _, _, e0, e1, _⟩ := idx_facts t
  match a with
  | ⟨0, _⟩ => show win0_3.index t (0 : Fin 2) * 2048 + 1 * p.val = p.val; omega
  | ⟨1, _⟩ => show win0_3.index t (1 : Fin 2) * 512 + 1 * d.val = d.val; omega

theorem blk4 (c : Dev nD) (t : Fin cfg0.N) (p : Fin 2048) :
    iblk m c 4 t (ix2 (0 : Fin 1) p) = BM m c (ix1 p) := by
  unfold iblk
  show V m c main_v3 (((cfg0.win 4).blk t).view.emb (ix2 (0 : Fin 1) p)) = _
  rw [← v3_apply m c p]
  congr 1
  funext a; apply Fin.ext
  obtain ⟨_, _, _, _, _, _, _, _, e0, e1, _⟩ := idx_facts t
  match a with
  | ⟨0, _⟩ => show win0_4.index t (0 : Fin 2) * 1 + 1 * 0 = 0; omega
  | ⟨1, _⟩ => show win0_4.index t (1 : Fin 2) * 2048 + 1 * p.val = p.val; omega

theorem blk5 (c : Dev nD) (t : Fin cfg0.N) (p : Fin 2048) (d : Fin 512) :
    iblk m c 5 t (ix2 p d) = PX m c (ix2 p d) := by
  unfold iblk
  show V m c main_arg6 (((cfg0.win 5).blk t).view.emb (ix2 p d)) = _
  rw [V_main_arg6]
  congr 1
  funext a; apply Fin.ext
  obtain ⟨_, _, _, _, _, _, _, _, _, _, e0, e1, _⟩ := idx_facts t
  match a with
  | ⟨0, _⟩ => show win0_5.index t (0 : Fin 2) * 2048 + 1 * p.val = p.val; omega
  | ⟨1, _⟩ => show win0_5.index t (1 : Fin 2) * 512 + 1 * d.val = d.val; omega

theorem blk6 (c : Dev nD) (t : Fin cfg0.N) (y : Fin 256 → Fin 2048)
    (hy : ∀ b : Fin 256, m ((c : Thread nD τ).loc main_arg1) (ix1 b) = BitVec.ofNat 32 (y b).val) (r : Fin 128) :
    iblk m c 6 t (ix2 r (0 : Fin 1)) = BitVec.ofNat 32 (y (row t r)).val := by
  unfold iblk
  show V m c main_v1 (((cfg0.win 6).blk t).view.emb (ix2 r (0 : Fin 1))) = _
  rw [← v1_apply m c y hy (row t r)]
  congr 1
  funext a; apply Fin.ext
  obtain ⟨_, _, _, _, _, _, _, _, _, _, _, _, e0, e1, _⟩ := idx_facts t
  match a with
  | ⟨0, _⟩ => show win0_6.index t (0 : Fin 2) * 128 + 1 * r.val = t.val * 128 + r.val; omega
  | ⟨1, _⟩ => show win0_6.index t (1 : Fin 2) * 1 + 1 * 0 = 0; omega

/-- Row `r` of point `t`'s block has the features of batch row `128 t + r`. -/
theorem feat_blk (c : Dev nD) (t : Fin cfg0.N) (r : Fin 128) :
    Row.feat (iblk m c 0 t) (iblk m c 1 t) (iblk m c 2 t) r = Cert.Spec.featOf (X m c) (WB m c) (BB m c) (row t r) := by
  show Cert.Spec.featRow _ _ _ = Cert.Spec.featRow _ _ _
  exact congr (congr (congrArg Cert.Spec.featRow (funext fun k => blk0 m c t r k))
    (funext fun d => funext fun k => blk1 m c t d k)) (funext fun d => blk2 m c t d)

/-! ## The output blocks at any index of the block -/

theorem out7_idx (x0 : Vec Ideal S128x1024 .f32) (x1 : Vec Ideal S512x1024 .f32) (x2 : Vec Ideal S1x512 .f32)
    (x3 : Vec Ideal S2048x512 .f32) (x4 : Vec Ideal S1x2048 .f32) (x5 : Vec Ideal S2048x512 .f32) (x6 : Vec Ideal S128x1 .i32)
    (j : S128x2048.Idx) :
    out0_7 (F := Ideal) x0 x1 x2 x3 x4 x5 x6 j
      = Cert.Spec.outRow (Row.feat x0 x1 x2 (j 0)) (fun p d => x3 (ix2 p d)) (fun p => x4 (ix2 0 p)) (j 1) := by
  exact (congrArg (out0_7 (F := Ideal) x0 x1 x2 x3 x4 x5 x6) (eq_ix2 j)).trans (Row.out7_apply x0 x1 x2 x3 x4 x5 x6 (j 0) (j 1))

theorem out8_idx (x0 : Vec Ideal S128x1024 .f32) (x1 : Vec Ideal S512x1024 .f32) (x2 : Vec Ideal S1x512 .f32)
    (x3 : Vec Ideal S2048x512 .f32) (x4 : Vec Ideal S1x2048 .f32) (x5 : Vec Ideal S2048x512 .f32) (x6 : Vec Ideal S128x1 .i32)
    (yq : Fin 128 → Fin 2048) (hy : ∀ r, x6 (ix2 r 0) = BitVec.ofNat 32 (yq r).val) (j : S128x2.Idx) :
    out0_8 (F := Ideal) x0 x1 x2 x3 x4 x5 x6 j
      = if (j 1).val = 0 then Cert.Spec.lossK (Cert.Spec.denK (Row.feat x0 x1 x2 (j 0)) (fun p d => x5 (ix2 p d))) (yq (j 0))
        else Cert.Spec.normRow (Row.feat x0 x1 x2 (j 0)) := by
  by_cases h : (j 1).val = 0
  · rw [if_pos h]
    have h1 : j 1 = (0 : Fin 2) := Fin.ext h
    exact (congrArg (out0_8 (F := Ideal) x0 x1 x2 x3 x4 x5 x6) ((eq_ix2 j).trans (congrArg (fun q => ix2 (j 0) q) h1))).trans
      (Row.out8_loss_apply x0 x1 x2 x3 x4 x5 x6 yq hy (j 0))
  · rw [if_neg h]
    have h1 : j 1 = (1 : Fin 2) := Fin.ext (by have h2 : (j 1).val < 2 := (j 1).isLt; show (j 1).val = 1; omega)
    exact (congrArg (out0_8 (F := Ideal) x0 x1 x2 x3 x4 x5 x6) ((eq_ix2 j).trans (congrArg (fun q => ix2 (j 0) q) h1))).trans
      (Row.out8_norm_apply x0 x1 x2 x3 x4 x5 x6 (j 0))

/-! ## The two output arrays after the run -/

/-- The second output array as one function: column 0 the row's loss at its label, column 1 the row's norm. -/
def lnArr (c : Dev nD) (y : Fin 256 → Fin 2048) : Cert.Spec.Arr2 256 2 := fun i =>
  if (i 1).val = 0 then
    Cert.Spec.lossK (Cert.Spec.denK (Cert.Spec.featOf (X m c) (WB m c) (BB m c) (i 0)) (fun p d => PX m c (ix2 p d))) (y (i 0))
  else Cert.Spec.normRow (Cert.Spec.featOf (X m c) (WB m c) (BB m c) (i 0))

theorem emb7 (t : Fin cfg0.N) (j : S128x2048.Idx) :
    ((cfg0.win 7).blk t).view.emb j = ix2 (row t (j 0)) (j 1) := by
  funext a; apply Fin.ext
  obtain ⟨_, _, _, _, _, _, _, _, _, _, _, _, _, _, e0, e1, _⟩ := idx_facts t
  match a with
  | ⟨0, _⟩ => show win0_7.index t (0 : Fin 2) * 128 + 1 * (j 0).val = t.val * 128 + (j 0).val; omega
  | ⟨1, _⟩ => show win0_7.index t (1 : Fin 2) * 2048 + 1 * (j 1).val = (j 1).val; omega

theorem emb8 (t : Fin cfg0.N) (j : S128x2.Idx) :
    ((cfg0.win 8).blk t).view.emb j = ix2 (row t (j 0)) (j 1) := by
  funext a; apply Fin.ext
  obtain ⟨_, _, _, _, _, _, _, _, _, _, _, _, _, _, _, _, e0, e1, _⟩ := idx_facts t
  match a with
  | ⟨0, _⟩ => show win0_8.index t (0 : Fin 2) * 128 + 1 * (j 0).val = t.val * 128 + (j 0).val; omega
  | ⟨1, _⟩ => show win0_8.index t (1 : Fin 2) * 2 + 1 * (j 1).val = (j 1).val; omega

/-- What point `t` writes back to the first output is block `t` of the classifier outputs. -/
theorem flushed7_eq (c : Dev nD) (t : Fin cfg0.N) :
    (dats m 0 c).flushed 7 t = ((cfg0.win 7).blk t).view.read (Elt Ideal)
      (Cert.Spec.outArr (X m c) (WB m c) (BB m c) (WM m c) (BM m c)) := by
  show (cfg0.win 7).cut (grid0.coords t) ((dats m 0 c).after 7 t) = _
  rw [after0_7]
  funext j
  show out0_7 (F := Ideal) (iblk m c 0 t) (iblk m c 1 t) (iblk m c 2 t) (iblk m c 3 t) (iblk m c 4 t) (iblk m c 5 t) (iblk m c 6 t) j
    = Cert.Spec.outArr (X m c) (WB m c) (BB m c) (WM m c) (BM m c) (((cfg0.win 7).blk t).view.emb j)
  refine (out7_idx (iblk m c 0 t) (iblk m c 1 t) (iblk m c 2 t) (iblk m c 3 t) (iblk m c 4 t) (iblk m c 5 t) (iblk m c 6 t) j).trans ?_
  rw [emb7 t j, feat_blk m c t (j 0)]
  have e3 : (fun (p : Fin 2048) (d : Fin 512) => iblk m c 3 t (ix2 p d)) = fun p d => WM m c (ix2 p d) :=
    funext fun p => funext fun d => blk3 m c t p d
  have e4 : (fun (p : Fin 2048) => iblk m c 4 t (ix2 (0 : Fin 1) p)) = fun p => BM m c (ix1 p) := funext fun p => blk4 m c t p
  rw [e3, e4]
  rfl

/-- What point `t` writes back to the second output is block `t` of the (loss, norm) pairs. -/
theorem flushed8_eq (c : Dev nD) (y : Fin 256 → Fin 2048)
    (hy : ∀ b : Fin 256, m ((c : Thread nD τ).loc main_arg1) (ix1 b) = BitVec.ofNat 32 (y b).val) (t : Fin cfg0.N) :
    (dats m 0 c).flushed 8 t = ((cfg0.win 8).blk t).view.read (Elt Ideal) (lnArr m c y) := by
  show (cfg0.win 8).cut (grid0.coords t) ((dats m 0 c).after 8 t) = _
  rw [after0_8]
  funext j
  show out0_8 (F := Ideal) (iblk m c 0 t) (iblk m c 1 t) (iblk m c 2 t) (iblk m c 3 t) (iblk m c 4 t) (iblk m c 5 t) (iblk m c 6 t) j
    = lnArr m c y (((cfg0.win 8).blk t).view.emb j)
  refine (out8_idx (iblk m c 0 t) (iblk m c 1 t) (iblk m c 2 t) (iblk m c 3 t) (iblk m c 4 t) (iblk m c 5 t) (iblk m c 6 t)
    (fun r => y (row t r)) (fun r => blk6 m c t y hy r) j).trans ?_
  rw [emb8 t j, feat_blk m c t (j 0)]
  have e5 : (fun (p : Fin 2048) (d : Fin 512) => iblk m c 5 t (ix2 p d)) = fun p d => PX m c (ix2 p d) :=
    funext fun p => funext fun d => blk5 m c t p d
  rw [e5]
  rfl

theorem mem_blk7 (t : Fin cfg0.N) (i : S256x2048.Idx) :
    i ∈ ((cfg0.win 7).blk t).view.set ↔ ∀ a : Fin 2, win0_7.index t a * S128x2048.size a ≤ (i a).val ∧ (i a).val < win0_7.index t a * S128x2048.size a + S128x2048.size a := by
  show i ∈ ((View.whole main_v4_0).slice (win0_7.rect t)).set ↔ _
  rw [View.set_slice_whole, Rect.mem_set_unit]
  exact Iff.rfl

theorem mem_blk8 (t : Fin cfg0.N) (i : S256x2.Idx) :
    i ∈ ((cfg0.win 8).blk t).view.set ↔ ∀ a : Fin 2, win0_8.index t a * S128x2.size a ≤ (i a).val ∧ (i a).val < win0_8.index t a * S128x2.size a + S128x2.size a := by
  show i ∈ ((View.whole main_v4_1).slice (win0_8.rect t)).set ↔ _
  rw [View.set_slice_whole, Rect.mem_set_unit]
  exact Iff.rfl

/-- The point whose block holds batch row `b`: `b / 128`. -/
def pointOf (b : Nat) (hb : b < 256) : Fin cfg0.N := ⟨b / 128, by show b / 128 < grid0.N; rw [N_0]; omega⟩

theorem cover7 (i : S256x2048.Idx) : ∃ t : Fin cfg0.N, (cfg0.win 7).flush t = true ∧ i ∈ ((cfg0.win 7).blk t).view.set := by
  have hi0 : (i 0).val < 256 := (i 0).isLt
  have hi1 : (i 1).val < 2048 := (i 1).isLt
  refine ⟨pointOf (i 0).val hi0, flush0_7 _, ?_⟩
  rw [mem_blk7]
  obtain ⟨_, _, _, _, _, _, _, _, _, _, _, _, _, _, e0, e1, _⟩ := idx_facts (pointOf (i 0).val hi0)
  have ht : (pointOf (i 0).val hi0).val = (i 0).val / 128 := rfl
  intro a
  match a with
  | ⟨0, _⟩ => show win0_7.index _ (0 : Fin 2) * 128 ≤ (i 0).val ∧ (i 0).val < win0_7.index _ (0 : Fin 2) * 128 + 128; omega
  | ⟨1, _⟩ => show win0_7.index _ (1 : Fin 2) * 2048 ≤ (i 1).val ∧ (i 1).val < win0_7.index _ (1 : Fin 2) * 2048 + 2048; omega

theorem cover8 (i : S256x2.Idx) : ∃ t : Fin cfg0.N, (cfg0.win 8).flush t = true ∧ i ∈ ((cfg0.win 8).blk t).view.set := by
  have hi0 : (i 0).val < 256 := (i 0).isLt
  have hi1 : (i 1).val < 2 := (i 1).isLt
  refine ⟨pointOf (i 0).val hi0, flush0_8 _, ?_⟩
  rw [mem_blk8]
  obtain ⟨_, _, _, _, _, _, _, _, _, _, _, _, _, _, _, _, e0, e1, _⟩ := idx_facts (pointOf (i 0).val hi0)
  have ht : (pointOf (i 0).val hi0).val = (i 0).val / 128 := rfl
  intro a
  match a with
  | ⟨0, _⟩ => show win0_8.index _ (0 : Fin 2) * 128 ≤ (i 0).val ∧ (i 0).val < win0_8.index _ (0 : Fin 2) * 128 + 128; omega
  | ⟨1, _⟩ => show win0_8.index _ (1 : Fin 2) * 2 ≤ (i 1).val ∧ (i 1).val < win0_8.index _ (1 : Fin 2) * 2 + 2; omega

/-- After the run the first output array is the classifier outputs. -/
theorem final7 (c : Dev nD) : (dats m 0 c).arrAt 7 cfg0.N = Cert.Spec.outArr (X m c) (WB m c) (BB m c) (WM m c) (BM m c) :=
  (dats m 0 c).arrAt_eq_of_cover 7 _ (fun t _ => flushed7_eq m c t) cover7

/-- After the run the second output array is the (loss, norm) pairs. -/
theorem final8 (c : Dev nD) (y : Fin 256 → Fin 2048)
    (hy : ∀ b : Fin 256, m ((c : Thread nD τ).loc main_arg1) (ix1 b) = BitVec.ofNat 32 (y b).val) :
    (dats m 0 c).arrAt 8 cfg0.N = lnArr m c y :=
  (dats m 0 c).arrAt_eq_of_cover 8 _ (fun t _ => flushed8_eq m c y hy t) cover8

/-! ## The host lines after the call -/

/-- A length-256 vector index is its one coordinate. -/
def idxEquiv1 : S256.Idx ≃ Fin 256 where
  toFun j := j 0
  invFun b := ix1 b
  left_inv j := (eq_ix1 j).symm
  right_inv _ := rfl

/-- Slicing column `q` out of a 256 × 2 array, flattening it, summing it from zero and dividing by the word of 256 is
    the mean of that column. -/
theorem col_mean (G : S256x2.Idx → EReal) (off : Fin S256x2.rank → Nat) (hsl : S256x2.Slices off S256x1) (q : Fin 2)
    (h0 : off 0 = 0) (h1 : off 1 = q.val) :
    Host.divf (F := Ideal) (Host.reduceAdd (F := Ideal) (shapeCast S256 (extractStridedSlice S256x1 off G hsl) shapeCasts_S256x1_S256)
        (constant (F := Ideal) S_ .f32 0x00000000#32) reducesTo_S256_S_d0 h_S_) (constant (F := Ideal) S_ .f32 0x43800000#32)
      = fun _ => Ideal.div (∑ b : Fin 256, G (ix2 b q)) Cert.Spec.c256 := by
  funext i
  show FloatOps.hostDivf (Host.reduceAdd (F := Ideal) _ _ reducesTo_S256_S_d0 h_S_ i) (Ideal.ofBits .f32 0x43800000#32) = _
  rw [Ideal.hostDivf_def]
  congr 1
  simp only [Host.reduceAdd, Ideal.hostReduceAdd_def]
  rw [Ideal.hostReduceAdd_total reducesTo_S256_S_d0 (fun b => b.elim0)]
  show Ideal.ofBits .f32 0x00000000#32 + _ = _
  rw [Ideal.ofBits_zero_f32, zero_add]
  refine Fintype.sum_equiv idxEquiv1 _ _ (fun j => ?_)
  show shapeCast S256 (extractStridedSlice S256x1 off G hsl) shapeCasts_S256x1_S256 j = G (ix2 (j 0) q)
  rw [shapeCast_apply _ shapeCasts_S256x1_S256 j (ix2 (j 0) (0 : Fin 1)) (by
    rw [Shape.rowMajor_val_one, Shape.rowMajor_val_two]; show (j 0).val * 1 + 0 = (j 0).val; omega)]
  exact extractStridedSlice_apply off G hsl _ (ix2 (j 0) q) (fun a => by
    match a with
    | ⟨0, _⟩ => show (j 0).val = off 0 + (j 0).val; rw [h0]; omega
    | ⟨1, _⟩ => show q.val = off 1 + 0; rw [h1]; omega)

/-- The second output array as the lines after the call find it. -/
theorem tail_arr (c : Dev nD) (y : Fin 256 → Fin 2048)
    (hy : ∀ b : Fin 256, m ((c : Thread nD τ).loc main_arg1) (ix1 b) = BitVec.ofNat 32 (y b).val) :
    Pipeline.withArrays (cfgs 0).spec c (V0 m c) (fun w => (dats m 0 c).arrAt w (cfgs 0).N) (Proc.devRef .tc main_v4_1)
      = lnArr m c y :=
  (Pipeline.withArrays_arr spec0 launch0.win.arr_inj c _ _ 8).trans (final8 m c y hy)

/-- The loss result: the mean of column 0 of the second output array. -/
theorem tail_v8 (c : Dev nD) (y : Fin 256 → Fin 2048)
    (hy : ∀ b : Fin 256, m ((c : Thread nD τ).loc main_arg1) (ix1 b) = BitVec.ofNat 32 (y b).val) :
    Pipeline.afterTail₀ cfgs (dats m) 0 (V0 m) [hostOps1] c main_v8
      = Cert.Spec.lossValK (X m c) (WB m c) (BB m c) (PX m c) y := by
  unfold Pipeline.afterTail₀
  show StableHlo.after hostOps1 _ (Proc.devRef .tc main_v8) = _
  after_results
  rw [tail_arr m c y hy]
  refine (col_mean (lnArr m c y) ![0, 0] slices_S256x2_S256x1_0_0 0 rfl rfl).trans ?_
  rfl

/-- The regulariser result: the mean of column 1 of the second output array. -/
theorem tail_v12 (c : Dev nD) (y : Fin 256 → Fin 2048)
    (hy : ∀ b : Fin 256, m ((c : Thread nD τ).loc main_arg1) (ix1 b) = BitVec.ofNat 32 (y b).val) :
    Pipeline.afterTail₀ cfgs (dats m) 0 (V0 m) [hostOps1] c main_v12
      = Cert.Spec.regVal (X m c) (WB m c) (BB m c) := by
  unfold Pipeline.afterTail₀
  show StableHlo.after hostOps1 _ (Proc.devRef .tc main_v12) = _
  after_results
  rw [tail_arr m c y hy]
  refine (col_mean (lnArr m c y) ![0, 1] slices_S256x2_S256x1_0_1 1 rfl rfl).trans ?_
  rfl

/-! ## The run, read -/

/-- Every weakly fair execution of the idealized kernel's @main ends with the three results at the specification's
    functions of the argument arrays and the arguments unchanged, when the labels are class words. -/
theorem run (y : Dev nD → Fin 256 → Fin 2048)
    (hy : ∀ (c : Dev nD) (b : Fin 256), m ((c : Thread nD τ).loc main_arg1) (ix1 b) = BitVec.ofNat 32 (y c b).val) :
    θ_run defs (onTc (τ := τ) (main (F := Ideal))) ⟨m, fun _ => 0, ρ⟩ (fun r => ∀ c : Dev nD,
      r.2.mem ((c.tc : Thread nD τ).loc main_v4_0) = Cert.Spec.outArr (X m c) (WB m c) (BB m c) (WM m c) (BM m c)
      ∧ r.2.mem ((c.tc : Thread nD τ).loc main_v8) = Cert.Spec.lossValK (X m c) (WB m c) (BB m c) (PX m c) (y c)
      ∧ r.2.mem ((c.tc : Thread nD τ).loc main_v12) = Cert.Spec.regVal (X m c) (WB m c) (BB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 7).trans (final7 m c),
      ((h c).2 main_v8 (Pipeline.mem_restRefs_of main_v8 (by decide) (by decide))).trans (tail_v8 m c (y c) (hy c)),
      ((h c).2 main_v12 (Pipeline.mem_restRefs_of main_v12 (by decide) (by decide))).trans (tail_v12 m c (y c) (hy c)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      ((h c).1 3).trans (((dats m 0 c).arrAt_in 3 rfl _).trans ((A_eq m c 3).trans (V_main_arg4 m c))),
      (((h c).2 main_arg5 (Pipeline.mem_restRefs_of main_arg5 (by decide) (by decide))).trans (W_main_arg5 m (dats m) c)),
      ((h c).1 5).trans (((dats m 0 c).arrAt_in 5 rfl _).trans ((A_eq m c 5).trans (V_main_arg6 m c)))⟩)
    (run_main m ρ)

end Cert.KernelIdeal.Arr

end
-- ==== Proof.PreFacts.lean ====
/-
  What the precondition says of the argument arrays: every entry of the six float arrays is a real number (its
  absolute value is below +∞, so it is neither infinity), and every label is a word naming a class, 0 ≤ y < 2048.
-/
import proofs.«412143_j79731772883628_3_alg».proof.Pre_finite_inputs
import proofs.«412143_j79731772883628_3_alg».proof.Proof.Gen.Pre_finite_inputs
import Idealize.ShloMosaic.PureOps.Ideal
import Idealize.ShloMosaic.Lib.ValueIdx
import Idealize.ShloMosaic.Lib.ReduceAll

noncomputable section

namespace Cert.PreFacts

open Idealize.ShloMosaic Idealize.ShloMosaic.ValueIdx Cert.Pre_finite_inputs

/-- The f32 word 0x7F800000 (sign 0, exponent all ones, fraction 0) denotes +∞. -/
theorem inf_word : Ideal.ofBits .f32 0x7F800000#32 = (⊤ : EReal) := by
  simp [Ideal.ofBits, Ideal.ieee]

/-- An extended real whose absolute value max x (-x) lies strictly below +∞ is a real number:
    at ⊥ and at ⊤ the maximum is ⊤ itself. -/
theorem real_of_abs_lt_top (x : EReal) (h : Ideal.cmp .olt (max x (-x)) (⊤ : EReal) = 1#1) : ∃ r : ℝ, x = r := by
  induction x using EReal.rec with
  | bot => simp [Ideal.cmp] at h
  | coe r => exact ⟨r, rfl⟩
  | top => simp [Ideal.cmp] at h

/-- A signed 32-bit word w with 0 ≤ w and w < 2048 has unsigned value below 2048. -/
theorem toNat_lt_of_cmpi (w : BitVec 32) (h0 : IntOp.cmpi .sge w 0#32 = 1#1) (h1 : IntOp.cmpi .slt w 2048#32 = 1#1) :
    w.toNat < 2048 := by
  have e0 : (0#32 : BitVec 32).toInt = 0 := by decide
  have e1 : (2048#32 : BitVec 32).toInt = 2048 := by decide
  have hb : ∀ b : Bool, BitVec.ofBool b = 1#1 → b = true := by decide
  have g0 := hb _ h0
  have g1 := hb _ h1
  simp only [BitVec.sle, BitVec.slt, e0, e1, decide_eq_true_eq] at g0 g1
  rw [BitVec.toInt_eq_toNat_cond] at g0 g1
  have := w.isLt
  split at g0 <;> omega

/-- One array, any shape: where the comparison |x| < +∞ (the +∞ word broadcast from a scalar) holds at an index,
    the entry there is a real number. -/
theorem real_of_lt_inf {s : Shape} (hb : S_.BroadcastsInDim s (![] : Fin 0 → Fin s.rank)) (x : FVec Ideal s .f32) (i : s.Idx)
    (h : cmpf .olt (Host.absf x) (broadcastInDim s ![] hb (constant (F := Ideal) S_ .f32 0x7F800000#32)) i = 1#1) :
    ∃ r : ℝ, x i = r := by
  apply real_of_abs_lt_top
  rw [← inf_word]
  exact h

instance : Subsingleton S_.Idx := ⟨fun a b => funext fun d => d.elim0⟩

/-- The precondition, read at the extended reals: all six float arrays hold real numbers and every label is the
    word of a class index below 2048. -/
theorem of_pre [Cert.Pre_finite_inputs.Facts]
    (a0 : FVec Ideal S256x1024 .f32) (a1 : IVec S256 32) (a2 : FVec Ideal S512x1024 .f32) (a3 : FVec Ideal S512 .f32)
    (a4 : FVec Ideal S2048x512 .f32) (a5 : FVec Ideal S2048 .f32) (a6 : FVec Ideal S2048x512 .f32)
    (h : Cert.Pre_finite_inputs.fn (F := Ideal) a0 a1 a2 a3 a4 a5 a6 = fun _ => 1#1) :
    (∀ i, ∃ r : ℝ, a0 i = r) ∧ (∀ i, ∃ r : ℝ, a2 i = r) ∧ (∀ i, ∃ r : ℝ, a3 i = r) ∧ (∀ i, ∃ r : ℝ, a4 i = r)
      ∧ (∀ i, ∃ r : ℝ, a5 i = r) ∧ (∀ i, ∃ r : ℝ, a6 i = r)
      ∧ ∃ y : Fin 256 → Fin 2048, ∀ b : Fin 256, a1 (ix1 b) = BitVec.ofNat 32 (y b).val := by
  have h0 := congrFun h ix0
  dsimp only [fn, fn_part1, fn_part2, andi] at h0
  simp only [IntOp.andi_eq_one] at h0
  obtain ⟨⟨⟨⟨⟨⟨h_0, h_2⟩, h_3⟩, h_4⟩, h_5⟩, h_6⟩, h_1⟩ := h0
  refine ⟨fun i => ?_, fun i => ?_, fun i => ?_, fun i => ?_, fun i => ?_, fun i => ?_, ?_⟩
  · exact real_of_lt_inf _ a0 i (Host.reduce_andi_all _ _ _ _ ix0 h_0 i)
  · exact real_of_lt_inf _ a2 i (Host.reduce_andi_all _ _ _ _ ix0 h_2 i)
  · exact real_of_lt_inf _ a3 i (Host.reduce_andi_all _ _ _ _ ix0 h_3 i)
  · exact real_of_lt_inf _ a4 i (Host.reduce_andi_all _ _ _ _ ix0 h_4 i)
  · exact real_of_lt_inf _ a5 i (Host.reduce_andi_all _ _ _ _ ix0 h_5 i)
  · exact real_of_lt_inf _ a6 i (Host.reduce_andi_all _ _ _ _ ix0 h_6 i)
  · have hw : ∀ b : Fin 256, (a1 (ix1 b)).toNat < 2048 := fun b => by
      have hb := Host.reduce_andi_all _ _ _ _ ix0 h_1 (ix1 b)
      obtain ⟨hb0, hb1⟩ := IntOp.andi_eq_one.1 hb
      exact toNat_lt_of_cmpi _ hb0 hb1
    refine ⟨fun b => ⟨(a1 (ix1 b)).toNat, hw b⟩, fun b => ?_⟩
    apply BitVec.eq_of_toNat_eq
    have := hw b
    simp only [BitVec.toNat_ofNat]
    omega

end Cert.PreFacts

end
-- ==== Proof.lean ====
/-
  A retrieval-style classifier: a linear backbone `feat = x · Wbᵀ + bb`, a linear head `out = feat · Wmᵀ + bm`, the
  mean Euclidean norm of the feature rows as a regulariser, and a cross-entropy loss on the negated squared distances
  of each feature row to 2048 proxies, at the row's label. The kernel runs two batch blocks of 128 rows, each
  computing its features, outputs, the distances in the expanded form `|f|² − 2 f·p + |p|²`, a log-sum-exp over
  the 2048 classes and a one-hot pick of the labelled distance; the host then averages the per-row losses and norms.
  The reference computes the distances term by term as `∑ (f − p)²`, a log-softmax, a gather at the label, and
  negates the batch mean.

  Read over the extended reals, the outputs and the regulariser are the same sums on both sides. The loss needs the
  inputs finite: then the features are real, the two forms of the distance agree (the binomial expansion, summed),
  every row's log-probability is a real number, and negating each row before the mean is negating the mean. The
  labels are taken in their range 0 ≤ y < 2048 (the kernel clips them, the reference's gather wraps negative words and
  fills out-of-range ones with a NaN: outside the range the two do not compute the same thing).

  The three frames are the generated ones (the reference's is its run with the results dropped); there is no
  idealization step to account for (`preserves` is `True`).
-/
import proofs.«412143_j79731772883628_3_alg».proof.Defs
import proofs.«412143_j79731772883628_3_alg».proof.Proof.Gen.Kernel
import proofs.«412143_j79731772883628_3_alg».proof.Proof.Gen.Kernel.Skeleton
import proofs.«412143_j79731772883628_3_alg».proof.Proof.Gen.Kernel.Launch
import proofs.«412143_j79731772883628_3_alg».proof.Proof.Gen.Kernel.Points
import proofs.«412143_j79731772883628_3_alg».proof.Proof.Gen.Kernel.Frame
import proofs.«412143_j79731772883628_3_alg».proof.Proof.Gen.KernelIdeal
import proofs.«412143_j79731772883628_3_alg».proof.Proof.Gen.KernelIdeal.Skeleton
import proofs.«412143_j79731772883628_3_alg».proof.Proof.Gen.KernelIdeal.Launch
import proofs.«412143_j79731772883628_3_alg».proof.Proof.Gen.KernelIdeal.Points
import proofs.«412143_j79731772883628_3_alg».proof.Proof.Gen.KernelIdeal.Frame
import proofs.«412143_j79731772883628_3_alg».proof.Proof.Gen.ReferenceIdeal
import proofs.«412143_j79731772883628_3_alg».proof.Proof.Gen.Pre_finite_inputs
import proofs.«412143_j79731772883628_3_alg».proof.Proof.RefRun
import proofs.«412143_j79731772883628_3_alg».proof.Proof.RefRead
import proofs.«412143_j79731772883628_3_alg».proof.Proof.RefValue
import proofs.«412143_j79731772883628_3_alg».proof.Proof.KernelValue
import proofs.«412143_j79731772883628_3_alg».proof.Proof.PreFacts
import proofs.«412143_j79731772883628_3_alg».proof.Proof.Results
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the three results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

theorem preserves : Cert.preserves_Kernel_KernelIdeal := trivial

/-- Both runs end at the specification's three results of arguments that agree; the loss is where the finiteness of
    the inputs and the range of the labels are used. -/
theorem algebraic : Cert.algebraic_KernelIdeal_ReferenceIdeal := by
  intro m ρ m' ρ' hpre hagree
  have hP := fun c => Cert.PreFacts.of_pre _ _ _ _ _ _ _ (hpre c)
  choose h0 h2 h3 h4 h5 h6 hy using hP
  choose y hy' using hy
  refine ⟨fun c => Cert.Spec.outArr (Cert.KernelIdeal.Arr.X m c) (Cert.KernelIdeal.Arr.WB m c) (Cert.KernelIdeal.Arr.BB m c)
      (Cert.KernelIdeal.Arr.WM m c) (Cert.KernelIdeal.Arr.BM m c),
    fun c => Cert.Spec.lossValK (Cert.KernelIdeal.Arr.X m c) (Cert.KernelIdeal.Arr.WB m c) (Cert.KernelIdeal.Arr.BB m c)
      (Cert.KernelIdeal.Arr.PX m c) (y c),
    fun c => Cert.Spec.regVal (Cert.KernelIdeal.Arr.X m c) (Cert.KernelIdeal.Arr.WB m c) (Cert.KernelIdeal.Arr.BB m c),
    Cert.KernelIdeal.Arr.run m ρ y hy', ?_⟩
  refine (θ_run Cert.ReferenceIdeal.defs _ _).mono (fun _ h c => ?_) (Cert.ReferenceIdeal.ValueP.run (F := Ideal) m' ρ')
  obtain ⟨r14, r28, r9, rest⟩ := h c
  obtain ⟨e0, e1, e2, e3, e4, e5, e6⟩ := hagree c
  refine ⟨r14.trans ?_, r28.trans ?_, r9.trans ?_, rest⟩
  · rw [Cert.ReferenceIdeal.ReadP.val_main_v14_eq, Cert.ReferenceIdeal.RefValue.ref_out, e0, e2, e3, e4, e5]
  · rw [Cert.ReferenceIdeal.ReadP.val_main_v28_eq,
      Cert.ReferenceIdeal.RefValue.ref_loss _ _ _ _ _ (y c) (fun b => by rw [e1]; exact hy' c b), e0, e2, e3, e6]
    exact (Cert.Spec.lossVal_agree _ _ _ _ (y c) (h0 c) (h2 c) (h3 c) (h6 c)).symm
  · rw [Cert.ReferenceIdeal.ReadP.val_main_v9_eq, Cert.ReferenceIdeal.RefValue.ref_reg, e0, e2, e3]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
